-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512x1x4 : Shape := ⟨4, ![10000, 512, 1, 4]⟩
abbrev S3x512x1 : Shape := ⟨3, ![3, 512, 1]⟩
abbrev S3x1 : Shape := ⟨2, ![3, 1]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S10000x512x1x4 : S_.BroadcastsInDim S10000x512x1x4 (![] : Fin 0 → Fin S10000x512x1x4.rank)
  reducesTo_S10000x512x1x4_S_d0_1_2_3 : S10000x512x1x4.ReducesTo [0, 1, 2, 3] S_
  h_S_ : 0 < S_.numel
  bcast_S_S3x512x1 : S_.BroadcastsInDim S3x512x1 (![] : Fin 0 → Fin S3x512x1.rank)
  reducesTo_S3x512x1_S_d0_1_2 : S3x512x1.ReducesTo [0, 1, 2] S_
  bcast_S_S3x1 : S_.BroadcastsInDim S3x1 (![] : Fin 0 → Fin S3x1.rank)
  reducesTo_S3x1_S_d0_1 : S3x1.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1024 .f32) (main_arg5 : FVec F S1024x1 .f32) (main_arg6 : FVec F S1 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1 .f32 := Host.absf main_arg5
  let main_cst_8 : FVec F S_ .f32 := constant S_ .f32 0x7F800000#32
  let main_v25 : FVec F S1024x1 .f32 := broadcastInDim S1024x1 ![] bcast_S_S1024x1 main_cst_8
  let main_v26 : IVec S1024x1 1 := cmpf .olt main_v24 main_v25
  let main_c_9 : IVec S_ 1 := constantI S_ 1 1#1
  let main_v27 : IVec S_ 1 := (fun x v => Host.reduce IntOp.andi x v reducesTo_S1024x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S10000x512x1x4 .f32) (main_arg1 : FVec F S3x512x1 .f32) (main_arg2 : FVec F S3x1 .f32) (main_arg3 : FVec F S512x1024 .f32) (main_arg4 : FVec F S1024 .f32) (main_arg5 : FVec F S1024x1 .f32) (main_arg6 : FVec F S1 .f32) : IVec S_ 1 :=
  let main_v0 : FVec F S10000x512x1x4 .f32 := Host.absf main_arg0
  let main_cst : FVec F S_ .f32 := constant S_ .f32 0x7F800000#32
  let main_v1 : FVec F S10000x512x1x4 .f32 := broadcastInDim S10000x512x1x4 ![] bcast_S_S10000x512x1x4 main_cst
  let main_v2 : IVec S10000x512x1x4 1 := cmpf .olt main_v0 main_v1
  let main_c : IVec S_ 1 := constantI S_ 1 1#1
  let main_v3 : IVec S_ 1 := (fun x v => Host.reduce IntOp.andi x v reducesTo_S10000x512x1x4_S_d0_1_2_3 h_S_) main_v2 main_c
  let main_v4 : FVec F S3x512x1 .f32 := Host.absf main_arg1
  let main_cst_0 : FVec F S_ .f32 := constant S_ .f32 0x7F800000#32
  let main_v5 : FVec F S3x512x1 .f32 := broadcastInDim S3x512x1 ![] bcast_S_S3x512x1 main_cst_0
  let main_v6 : IVec S3x512x1 1 := cmpf .olt main_v4 main_v5
  let main_c_1 : IVec S_ 1 := constantI S_ 1 1#1
  let main_v7 : IVec S_ 1 := (fun x v => Host.reduce IntOp.andi x v reducesTo_S3x512x1_S_d0_1_2 h_S_) main_v6 main_c_1
  let main_v8 : IVec S_ 1 := andi main_v3 main_v7
  let main_v9 : FVec F S3x1 .f32 := Host.absf main_arg2
  let main_cst_2 : FVec F S_ .f32 := constant S_ .f32 0x7F800000#32
  let main_v10 : FVec F S3x1 .f32 := broadcastInDim S3x1 ![] bcast_S_S3x1 main_cst_2
  let main_v11 : IVec S3x1 1 := cmpf .olt main_v9 main_v10
  let main_c_3 : IVec S_ 1 := constantI S_ 1 1#1
  let main_v12 : IVec S_ 1 := (fun x v => Host.reduce IntOp.andi x v reducesTo_S3x1_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Kernel.lean ====
abbrev S10000x512x1x4 : Shape := ⟨4, ![10000, 512, 1, 4]⟩
abbrev S3x512x1 : Shape := ⟨3, ![3, 512, 1]⟩
abbrev S3x1 : Shape := ⟨2, ![3, 1]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S10000x2048 : Shape := ⟨2, ![10000, 2048]⟩
abbrev S3x512 : Shape := ⟨2, ![3, 512]⟩
abbrev S_ : Shape := ⟨0, ![]⟩
abbrev S1x512 : Shape := ⟨2, ![1, 512]⟩
abbrev S4x512 : Shape := ⟨2, ![4, 512]⟩
abbrev S512x4 : Shape := ⟨2, ![512, 4]⟩
abbrev S1x2048 : Shape := ⟨2, ![1, 2048]⟩
abbrev S512x4x1024 : Shape := ⟨3, ![512, 4, 1024]⟩
abbrev S2048x1024 : Shape := ⟨2, ![2048, 1024]⟩
abbrev S1x1 : Shape := ⟨2, ![1, 1]⟩
abbrev S1x1024 : Shape := ⟨2, ![1, 1024]⟩
abbrev S10000x1 : Shape := ⟨2, ![10000, 1]⟩
abbrev S1000x2048 : Shape := ⟨2, ![1000, 2048]⟩
abbrev S1000x1 : Shape := ⟨2, ![1000, 1]⟩
abbrev S1000 : Shape := ⟨1, ![1000]⟩
abbrev S1000x1024 : Shape := ⟨2, ![1000, 1024]⟩
abbrev S10000 : Shape := ⟨1, ![10000]⟩

abbrev nBuf : Space → Nat
  | .hbm => 30
  | .vmem => 9
  | .smem => 0
  | _ => 0

abbrev bufTy : (tb : Table) → Fin (tcTables nBuf tb) → BufTy
  | .hbm, ⟨0, _⟩ => ⟨S10000x512x1x4, .f32⟩
  | .hbm, ⟨1, _⟩ => ⟨S3x512x1, .f32⟩
  | .hbm, ⟨2, _⟩ => ⟨S3x1, .f32⟩
  | .hbm, ⟨3, _⟩ => ⟨S512x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S10000x2048, .f32⟩
  | .hbm, ⟨8, _⟩ => ⟨S3x512, .f32⟩
  | .hbm, ⟨9, _⟩ => ⟨S_, .f32⟩
  | .hbm, ⟨10, _⟩ => ⟨S1x512, .f32⟩
  | .hbm, ⟨11, _⟩ => ⟨S4x512, .f32⟩
  | .hbm, ⟨12, _⟩ => ⟨S512x4, .f32⟩
  | .hbm, ⟨13, _⟩ => ⟨S1x2048, .f32⟩
  | .hbm, ⟨14, _⟩ => ⟨S_, .f32⟩
  | .hbm, ⟨15, _⟩ => ⟨S512x4x1024, .f32⟩
  | .hbm, ⟨16, _⟩ => ⟨S_, .i32⟩
  | .hbm, ⟨17, _⟩ => ⟨S1, .i32⟩
  | .hbm, ⟨18, _⟩ => ⟨S512x4x1024, .f32⟩
  | .hbm, ⟨19, _⟩ => ⟨S2048x1024, .f32⟩
  | .hbm, ⟨20, _⟩ => ⟨S2048x1024, .bf16⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S1x1024, .f32⟩
  | .hbm, ⟨27, _⟩ => ⟨S1x1024, .f32⟩
  | .hbm, ⟨28, _⟩ => ⟨S10000x1, .f32⟩
  | .hbm, ⟨29, _⟩ => ⟨S10000, .f32⟩
  | .local _ .vmem, ⟨0, _⟩ => ⟨S1000x2048, .f32⟩
  | .local _ .vmem, ⟨1, _⟩ => ⟨S1000x2048, .f32⟩
  | .local _ .vmem, ⟨2, _⟩ => ⟨S1x2048, .f32⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S1000x1, .f32⟩
  | .local _ .vmem, ⟨8, _⟩ => ⟨S1000x1, .f32⟩
  | _, _ => ⟨S10000x512x1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S10000x512x1x4_S10000x2048 : S10000x512x1x4.ShapeCasts S10000x2048
  shapeCasts_S3x512x1_S3x512 : S3x512x1.ShapeCasts S3x512
  bcast_S_S1x512 : S_.BroadcastsInDim S1x512 (![] : Fin 0 → Fin S1x512.rank)
  concatenates_S3x512_S1x512_S4x512_d0 : Shape.Concatenates [S3x512, S1x512] S4x512 0
  transposes_S4x512_S512x4_1_0 : S4x512.Transposes [1, 0] S512x4
  shapeCasts_S512x4_S1x2048 : S512x4.ShapeCasts S1x2048
  bcast_S_S512x4x1024 : S_.BroadcastsInDim S512x4x1024 (![] : Fin 0 → Fin S512x4x1024.rank)
  bcast_S_S1 : S_.BroadcastsInDim S1 (![] : Fin 0 → Fin S1.rank)
  shapeCasts_S512x4x1024_S2048x1024 : S512x4x1024.ShapeCasts S2048x1024
  bitsLt_bf16_f32 : FTy.bits .bf16 < FTy.bits .f32
  reducesTo_S3x1_S_d0_1 : S3x1.ReducesTo [0, 1] S_
  h_S_ : 0 < S_.numel
  shapeCasts_S1_S_ : S1.ShapeCasts S_
  shapeCasts_S_S1x1 : S_.ShapeCasts S1x1
  shapeCasts_S1024_S1x1024 : S1024.ShapeCasts S1x1024
  shapeCasts_S1024x1_S1x1024 : S1024x1.ShapeCasts S1x1024
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1000x2048 : S1x2048.Broadcasts S1000x2048
  reduces_S1000x2048_S1000 : S1000x2048.Reduces [1] S1000
  shapeCasts_S1000_S1000x1 : S1000.ShapeCasts S1000x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  reduces_S1000x1024_S1000 : S1000x1024.Reduces [1] S1000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  shapeCasts_S10000x1_S10000 : S10000x1.ShapeCasts S10000
  scatter_S512x4x1024_S1_S512x1024_01_1_1_0_wf : ScatterDims.WF S512x4x1024 S1 S512x1024 [0, 1] [1] [1] 0
  dot_S1000x2048_S2048x1024_S1000x1024_1_0_0_1_n_n_wf : DotDims.WF S1000x2048 S2048x1024 S1000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S10000x2048.size a
  hwx0_0 : ∀ i : grid0.Coords, EltTy.bits .f32 = 32 ∨ (Rect.block (s := S10000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x1.size a ≤ S10000x1.size a
  hwx0_6 : ∀ i : grid0.Coords, EltTy.bits .f32 = 32 ∨ (Rect.block (s := S10000x1) S1000x1.size (cc0_transform_6 i) (hinb0_6 i)).WholeWords (EltTy.packing .f32)

variable [Facts₀]

def scatter_S512x4x1024_S1_S512x1024_01_1_1_0 : ScatterDims S512x4x1024 S1 S512x1024 where
  updateWindowDims := [0, 1]
  insertedWindowDims := [1]
  scatterDimsToOperandDims := [1]
  indexVectorDim := 0
  wf := scatter_S512x4x1024_S1_S512x1024_01_1_1_0_wf
def dot_S1000x2048_S2048x1024_S1000x1024_1_0_0_1_n_n : DotDims S1000x2048 S2048x1024 S1000x1024 where
  lhsContracting := [1]
  rhsContracting := [0]
  lhsNonContracting := [0]
  rhsNonContracting := [1]
  lhsBatch := []
  rhsBatch := []
  wf := dot_S1000x2048_S2048x1024_S1000x1024_1_0_0_1_n_n_wf

abbrev win0_0 : Pipeline.Window sig grid0 :=
  Pipeline.Window.ofSpec (Memref.whole main_v0) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x512x1x4 : Shape := ⟨4, ![10000, 512, 1, 4]⟩
abbrev S3x512x1 : Shape := ⟨3, ![3, 512, 1]⟩
abbrev S3x1 : Shape := ⟨2, ![3, 1]⟩
abbrev S512x1024 : Shape := ⟨2, ![512, 1024]⟩
abbrev S1024 : Shape := ⟨1, ![1024]⟩
abbrev S1024x1 : Shape := ⟨2, ![1024, 1]⟩
abbrev S1 : Shape := ⟨1, ![1]⟩
abbrev S10000x512x4 : Shape := ⟨3, ![10000, 512, 4]⟩
abbrev S10000x512x1 : Shape := ⟨3, ![10000, 512, 1]⟩
abbrev S10000x512 : Shape := ⟨2, ![10000, 512]⟩
abbrev S1x512x1 : Shape := ⟨3, ![1, 512, 1]⟩
abbrev S512x1 : Shape := ⟨2, ![512, 1]⟩
abbrev S10000x1 : Shape := ⟨2, ![10000, 1]⟩
abbrev S1x1 : Shape := ⟨2, ![1, 1]⟩
abbrev S10000x1024 : Shape := ⟨2, ![10000, 1024]⟩
abbrev S1x1024 : Shape := ⟨2, ![1, 1024]⟩
abbrev S_ : Shape := ⟨0, ![]⟩
abbrev S1x10000x1 : Shape := ⟨3, ![1, 10000, 1]⟩
abbrev S4x10000x1 : Shape := ⟨3, ![4, 10000, 1]⟩
abbrev S10000 : Shape := ⟨1, ![10000]⟩

abbrev nBuf : Space → Nat
  | .hbm => 65
  | .vmem => 0
  | .smem => 0
  | _ => 0

abbrev bufTy : (tb : Table) → Fin (tcTables nBuf tb) → BufTy
  | .hbm, ⟨0, _⟩ => ⟨S10000x512x1x4, .f32⟩
  | .hbm, ⟨1, _⟩ => ⟨S3x512x1, .f32⟩
  | .hbm, ⟨2, _⟩ => ⟨S3x1, .f32⟩
  | .hbm, ⟨3, _⟩ => ⟨S512x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S10000x512x4, .f32⟩
  | .hbm, ⟨8, _⟩ => ⟨S10000x512x1, .f32⟩
  | .hbm, ⟨9, _⟩ => ⟨S10000x512, .f32⟩
  | .hbm, ⟨10, _⟩ => ⟨S1x512x1, .f32⟩
  | .hbm, ⟨11, _⟩ => ⟨S512x1, .f32⟩
  | .hbm, ⟨12, _⟩ => ⟨S10000x1, .f32⟩
  | .hbm, ⟨13, _⟩ => ⟨S1x1, .f32⟩
  | .hbm, ⟨14, _⟩ => ⟨S1, .f32⟩
  | .hbm, ⟨15, _⟩ => ⟨S1x1, .f32⟩
  | .hbm, ⟨16, _⟩ => ⟨S10000x1, .f32⟩
  | .hbm, ⟨17, _⟩ => ⟨S10000x1, .f32⟩
  | .hbm, ⟨18, _⟩ => ⟨S10000x512x1, .f32⟩
  | .hbm, ⟨19, _⟩ => ⟨S10000x512, .f32⟩
  | .hbm, ⟨20, _⟩ => ⟨S1x512x1, .f32⟩
  | .hbm, ⟨21, _⟩ => ⟨S512x1, .f32⟩
  | .hbm, ⟨22, _⟩ => ⟨S10000x1, .f32⟩
  | .hbm, ⟨23, _⟩ => ⟨S1x1, .f32⟩
  | .hbm, ⟨24, _⟩ => ⟨S1, .f32⟩
  | .hbm, ⟨25, _⟩ => ⟨S1x1, .f32⟩
  | .hbm, ⟨26, _⟩ => ⟨S10000x1, .f32⟩
  | .hbm, ⟨27, _⟩ => ⟨S10000x1, .f32⟩
  | .hbm, ⟨28, _⟩ => ⟨S10000x512x1, .f32⟩
  | .hbm, ⟨29, _⟩ => ⟨S10000x512, .f32⟩
  | .hbm, ⟨30, _⟩ => ⟨S1x512x1, .f32⟩
  | .hbm, ⟨31, _⟩ => ⟨S512x1, .f32⟩
  | .hbm, ⟨32, _⟩ => ⟨S10000x1, .f32⟩
  | .hbm, ⟨33, _⟩ => ⟨S1x1, .f32⟩
  | .hbm, ⟨34, _⟩ => ⟨S1, .f32⟩
  | .hbm, ⟨35, _⟩ => ⟨S1x1, .f32⟩
  | .hbm, ⟨36, _⟩ => ⟨S10000x1, .f32⟩
  | .hbm, ⟨37, _⟩ => ⟨S10000x1, .f32⟩
  | .hbm, ⟨38, _⟩ => ⟨S10000x512x1, .f32⟩
  | .hbm, ⟨39, _⟩ => ⟨S10000x512, .f32⟩
  | .hbm, ⟨40, _⟩ => ⟨S10000x1024, .f32⟩
  | .hbm, ⟨41, _⟩ => ⟨S1x1024, .f32⟩
  | .hbm, ⟨42, _⟩ => ⟨S10000x1024, .f32⟩
  | .hbm, ⟨43, _⟩ => ⟨S10000x1024, .f32⟩
  | .hbm, ⟨44, _⟩ => ⟨S10000x1024, .f32⟩
  | .hbm, ⟨45, _⟩ => ⟨S10000x1024, .f32⟩
  | .hbm, ⟨46, _⟩ => ⟨S_, .f32⟩
  | .hbm, ⟨47, _⟩ => ⟨S10000x1024, .f32⟩
  | .hbm, ⟨48, _⟩ => ⟨S10000x1024, .f32⟩
  | .hbm, ⟨49, _⟩ => ⟨S_, .f32⟩
  | .hbm, ⟨50, _⟩ => ⟨S10000x1024, .f32⟩
  | .hbm, ⟨51, _⟩ => ⟨S10000x1024, .f32⟩
  | .hbm, ⟨52, _⟩ => ⟨S10000x1024, .f32⟩
  | .hbm, ⟨53, _⟩ => ⟨S10000x1, .f32⟩
  | .hbm, ⟨54, _⟩ => ⟨S1x1, .f32⟩
  | .hbm, ⟨55, _⟩ => ⟨S10000x1, .f32⟩
  | .hbm, ⟨56, _⟩ => ⟨S10000x1, .f32⟩
  | .hbm, ⟨57, _⟩ => ⟨S1x10000x1, .f32⟩
  | .hbm, ⟨58, _⟩ => ⟨S1x10000x1, .f32⟩
  | .hbm, ⟨59, _⟩ => ⟨S1x10000x1, .f32⟩
  | .hbm, ⟨60, _⟩ => ⟨S1x10000x1, .f32⟩
  | .hbm, ⟨61, _⟩ => ⟨S4x10000x1, .f32⟩
  | .hbm, ⟨62, _⟩ => ⟨S_, .f32⟩
  | .hbm, ⟨63, _⟩ => ⟨S10000x1, .f32⟩
  | .hbm, ⟨64, _⟩ => ⟨S10000, .f32⟩
  | _, _ => ⟨S10000x512x1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  shapeCasts_S10000x512x1x4_S10000x512x4 : S10000x512x1x4.ShapeCasts S10000x512x4
  slices_S10000x512x4_S10000x512x1_0_0_0 : S10000x512x4.Slices ![0, 0, 0] S10000x512x1
  shapeCasts_S10000x512x1_S10000x512 : S10000x512x1.ShapeCasts S10000x512
  slices_S3x512x1_S1x512x1_0_0_0 : S3x512x1.Slices ![0, 0, 0] S1x512x1
  shapeCasts_S1x512x1_S512x1 : S1x512x1.ShapeCasts S512x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  slices_S10000x512x4_S10000x512x1_0_0_1 : S10000x512x4.Slices ![0, 0, 1] S10000x512x1
  slices_S3x512x1_S1x512x1_1_0_0 : S3x512x1.Slices ![1, 0, 0] S1x512x1
  slices_S3x1_S1x1_1_0 : S3x1.Slices ![1, 0] S1x1
  slices_S10000x512x4_S10000x512x1_0_0_2 : S10000x512x4.Slices ![0, 0, 2] S10000x512x1
  slices_S3x512x1_S1x512x1_2_0_0 : S3x512x1.Slices ![2, 0, 0] S1x512x1
  slices_S3x1_S1x1_2_0 : S3x1.Slices ![2, 0] S1x1
  slices_S10000x512x4_S10000x512x1_0_0_3 : S10000x512x4.Slices ![0, 0, 3] S10000x512x1
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S_S10000x1024 : S_.BroadcastsInDim S10000x1024 (![] : Fin 0 → Fin S10000x1024.rank)
  bcast_S10000x1_S1x10000x1_1_2 : S10000x1.BroadcastsInDim S1x10000x1 (![1, 2] : Fin 2 → Fin S1x10000x1.rank)
  concatenates_S1x10000x1_S1x10000x1_S1x10000x1_S1x10000x1_S4x10000x1_d0 : Shape.Concatenates [S1x10000x1, S1x10000x1, S1x10000x1, S1x10000x1] S4x10000x1 0
  reducesTo_S4x10000x1_S10000x1_d0 : S4x10000x1.ReducesTo [0] S10000x1
  h_S_ : 0 < S_.numel
  shapeCasts_S10000x1_S10000 : S10000x1.ShapeCasts S10000
  dot_S10000x512_S512x1_S10000x1_1_0_0_1_n_n_wf : DotDims.WF S10000x512 S512x1 S10000x1 [1] [0] [0] [1] [] []
  dot_S10000x512_S512x1024_S10000x1024_1_0_0_1_n_n_wf : DotDims.WF S10000x512 S512x1024 S10000x1024 [1] [0] [0] [1] [] []
  dot_S10000x1024_S1024x1_S10000x1_1_0_0_1_n_n_wf : DotDims.WF S10000x1024 S1024x1 S10000x1 [1] [0] [0] [1] [] []

variable [Facts₀]

def dot_S10000x512_S512x1_S10000x1_1_0_0_1_n_n : DotDims S10000x512 S512x1 S10000x1 where
  lhsContracting := [1]
  rhsContracting := [0]
  lhsNonContracting := [0]
  rhsNonContracting := [1]
  lhsBatch := []
  rhsBatch := []
  wf := dot_S10000x512_S512x1_S10000x1_1_0_0_1_n_n_wf
def dot_S10000x512_S512x1024_S10000x1024_1_0_0_1_n_n : DotDims S10000x512 S512x1024 S10000x1024 where
  lhsContracting := [1]
  rhsContracting := [0]
  lhsNonContracting := [0]
  rhsNonContracting := [1]
  lhsBatch := []
  rhsBatch := []
  wf := dot_S10000x512_S512x1024_S10000x1024_1_0_0_1_n_n_wf
def dot_S10000x1024_S1024x1_S10000x1_1_0_0_1_n_n : DotDims S10000x1024 S1024x1 S10000x1 where
  lhsContracting := [1]
  rhsContracting := [0]
  lhsNonContracting := [0]
  rhsNonContracting := [1]
  lhsBatch := []
  rhsBatch := []
  wf := dot_S10000x1024_S1024x1_S10000x1_1_0_0_1_n_n_wf

class Facts : Prop extends Facts₀ where

variable [Facts]
-- ==== Proof.Spec.lean ====
/-
  The mathematics of the readout, free of any program.

  A node `n` carries an embedding `e n c r` with 512 channels `c` and 4 residues `r`.  Residues 0, 1, 2 each go
  through a linear head `∑ c, e n c r * wl r c + bl r`; residue 3 goes through a hidden layer
  `h k = ∑ c, e n c 3 * w1 c k + b1 k` of width 1024, the activation `silu x = x * logistic x`, and an output
  head `∑ k, silu (h k) * w2 k + b2`.  The result at node `n` is the sum of the four head outputs.

  The kernel computes the same number from the embedding FLATTENED to 2048 interleaved lanes `j = 4 c + r`:
  the three linear heads become one product with the interleaved weight vector (zero on the lanes of residue 3)
  summed over all lanes, the hidden layer one product with the weight matrix expanded by zero rows (rows of residues
  0, 1, 2 zero), and the four biases are added up front.  `interleaved_eq` is that rearrangement: a sum over the 2048
  lanes is the double sum over channel and residue, a product with zero vanishes, and the extended reals are a
  commutative monoid under addition, so the terms may be regrouped freely.  No finiteness is needed.
-/
import Idealize.ShloMosaic.PureOps.Ideal
import Idealize.ShloMosaic.Lib.ValueIdx
import Mathlib.Algebra.BigOperators.Fin
import Mathlib.Logic.Equiv.Fin.Basic
import Mathlib.Data.Fintype.BigOperators
import Mathlib.Tactic.Abel

noncomputable section

namespace Cert.Readout

open Idealize.ShloMosaic Idealize.ShloMosaic.ValueIdx

/-- The activation `x · σ(x)` on the extended reals. -/
def silu (x : EReal) : EReal := x * Ideal.logistic x

/-- A dot product over the 512 channels. -/
def dot512 (a w : Fin 512 → EReal) : EReal := ∑ c : Fin 512, a c * w c

/-- The hidden unit `k` of node `n`: residue 3's channels against column `k` of `w1`, plus its bias. -/
def hidden (e : Fin 10000 → Fin 512 → Fin 4 → EReal) (w1 : Fin 512 → Fin 1024 → EReal) (b1 : Fin 1024 → EReal)
    (n : Fin 10000) (k : Fin 1024) : EReal :=
  dot512 (fun c => e n c 3) (fun c => w1 c k) + b1 k

/-- The readout at node `n`: three linear heads and the two-layer head, each with its bias, added in order. -/
def Gfin (e : Fin 10000 → Fin 512 → Fin 4 → EReal) (wl : Fin 3 → Fin 512 → EReal) (bl : Fin 3 → EReal)
    (w1 : Fin 512 → Fin 1024 → EReal) (b1 : Fin 1024 → EReal) (w2 : Fin 1024 → EReal) (b2 : EReal)
    (n : Fin 10000) : EReal :=
  (dot512 (fun c => e n c 0) (wl 0) + bl 0) + (dot512 (fun c => e n c 1) (wl 1) + bl 1)
    + (dot512 (fun c => e n c 2) (wl 2) + bl 2)
    + ((∑ k : Fin 1024, silu (hidden e w1 b1 n k) * w2 k) + b2)

/-- The readout as a function of the seven argument arrays, index by index over the result `[10000]`. -/
def G (x0 : (⟨4, ![10000, 512, 1, 4]⟩ : Shape).Idx → EReal) (x1 : (⟨3, ![3, 512, 1]⟩ : Shape).Idx → EReal)
    (x2 : (⟨2, ![3, 1]⟩ : Shape).Idx → EReal) (x3 : (⟨2, ![512, 1024]⟩ : Shape).Idx → EReal)
    (x4 : (⟨1, ![1024]⟩ : Shape).Idx → EReal) (x5 : (⟨2, ![1024, 1]⟩ : Shape).Idx → EReal)
    (x6 : (⟨1, ![1]⟩ : Shape).Idx → EReal) : (⟨1, ![10000]⟩ : Shape).Idx → EReal := fun i =>
  Gfin (fun n c r => x0 (ix4 n c (0 : Fin 1) r)) (fun r c => x1 (ix3 r c (0 : Fin 1))) (fun r => x2 (ix2 r (0 : Fin 1)))
    (fun c k => x3 (ix2 c k)) (fun k => x4 (ix1 k)) (fun k => x5 (ix2 k (0 : Fin 1))) (x6 (ix1 (0 : Fin 1))) (i 0)

/-- Lane `j`'s channel. -/
def chan (j : Fin 2048) : Fin 512 := ⟨j.val / 4, by have := j.isLt; omega⟩
/-- Lane `j`'s residue. -/
def resid (j : Fin 2048) : Fin 4 := ⟨j.val % 4, by omega⟩

/-- The interleaved linear-head weights: lane `4 c + r` holds `wl r c` for `r < 3`, zero for `r = 3`. -/
def wInt (wl : Fin 3 → Fin 512 → EReal) (j : Fin 2048) : EReal :=
  if h : (resid j).val < 3 then wl ⟨(resid j).val, h⟩ (chan j) else 0

/-- The expanded first-layer weights: row `4 c + 3` is row `c` of `w1`, every other row zero. -/
def w1Exp (w1 : Fin 512 → Fin 1024 → EReal) (j : Fin 2048) (k : Fin 1024) : EReal :=
  if (resid j).val = 3 then w1 (chan j) k else 0

/-- A sum over the 2048 lanes is the double sum over channel and residue. -/
theorem sum_lanes (f : Fin 512 → Fin 4 → EReal) :
    ∑ j : Fin 2048, f (chan j) (resid j) = ∑ c : Fin 512, ∑ r : Fin 4, f c r := by
  rw [← Fintype.sum_prod_type' f]
  symm
  refine Fintype.sum_equiv (finProdFinEquiv : Fin 512 × Fin 4 ≃ Fin (512 * 4)) _ _ ?_
  rintro ⟨c, r⟩
  have hc : chan (finProdFinEquiv (c, r)) = c :=
    Fin.ext (by have := r.isLt; show ((r : ℕ) + 4 * (c : ℕ)) / 4 = (c : ℕ); omega)
  have hr : resid (finProdFinEquiv (c, r)) = r :=
    Fin.ext (by have := r.isLt; show ((r : ℕ) + 4 * (c : ℕ)) % 4 = (r : ℕ); omega)
  show f c r = f (chan (finProdFinEquiv (c, r))) (resid (finProdFinEquiv (c, r)))
  rw [hc, hr]

/-- The kernel's arrangement is the readout. -/
theorem interleaved_eq (e : Fin 10000 → Fin 512 → Fin 4 → EReal) (wl : Fin 3 → Fin 512 → EReal) (bl : Fin 3 → EReal)
    (w1 : Fin 512 → Fin 1024 → EReal) (b1 : Fin 1024 → EReal) (w2 : Fin 1024 → EReal) (b2 : EReal) (n : Fin 10000) :
    ((∑ j : Fin 2048, e n (chan j) (resid j) * wInt wl j)
      + (∑ k : Fin 1024, silu ((∑ j : Fin 2048, e n (chan j) (resid j) * w1Exp w1 j k) + b1 k) * w2 k))
      + ((0 + (bl 0 + bl 1 + bl 2)) + b2)
    = Gfin e wl bl w1 b1 w2 b2 n := by
  -- the lanes of the interleaved weight vector, residue by residue
  have w0 : ∀ c, (if h : ((0 : Fin 4) : ℕ) < 3 then wl ⟨((0 : Fin 4) : ℕ), h⟩ c else 0) = wl 0 c :=
    fun c => by rw [dif_pos (by decide)]; rfl
  have w1' : ∀ c, (if h : ((1 : Fin 4) : ℕ) < 3 then wl ⟨((1 : Fin 4) : ℕ), h⟩ c else 0) = wl 1 c :=
    fun c => by rw [dif_pos (by decide)]; rfl
  have w2' : ∀ c, (if h : ((2 : Fin 4) : ℕ) < 3 then wl ⟨((2 : Fin 4) : ℕ), h⟩ c else 0) = wl 2 c :=
    fun c => by rw [dif_pos (by decide)]; rfl
  have w3 : ∀ c, (if h : ((3 : Fin 4) : ℕ) < 3 then wl ⟨((3 : Fin 4) : ℕ), h⟩ c else 0) = 0 :=
    fun c => by rw [dif_neg (by decide)]
  have hlin : (∑ j : Fin 2048, e n (chan j) (resid j) * wInt wl j)
      = dot512 (fun c => e n c 0) (wl 0) + dot512 (fun c => e n c 1) (wl 1) + dot512 (fun c => e n c 2) (wl 2) := by
    refine (sum_lanes (fun c r => e n c r * (if h : (r : ℕ) < 3 then wl ⟨(r : ℕ), h⟩ c else 0))).trans ?_
    simp only [Fin.sum_univ_four, w0, w1', w2', w3, mul_zero, add_zero, Finset.sum_add_distrib, dot512]
  have hhid : ∀ k : Fin 1024, (∑ j : Fin 2048, e n (chan j) (resid j) * w1Exp w1 j k)
      = dot512 (fun c => e n c 3) (fun c => w1 c k) := by
    intro k
    refine (sum_lanes (fun c r => e n c r * (if (r : ℕ) = 3 then w1 c k else 0))).trans ?_
    have z0 : ∀ c, (if ((0 : Fin 4) : ℕ) = 3 then w1 c k else 0) = 0 := fun c => if_neg (by decide)
    have z1 : ∀ c, (if ((1 : Fin 4) : ℕ) = 3 then w1 c k else 0) = 0 := fun c => if_neg (by decide)
    have z2 : ∀ c, (if ((2 : Fin 4) : ℕ) = 3 then w1 c k else 0) = 0 := fun c => if_neg (by decide)
    have z3 : ∀ c, (if ((3 : Fin 4) : ℕ) = 3 then w1 c k else 0) = w1 c k := fun c => if_pos (by decide)
    simp only [Fin.sum_univ_four, z0, z1, z2, z3, mul_zero, zero_add, dot512]
  rw [hlin]
  simp only [hhid]
  unfold Gfin hidden
  rw [zero_add]
  abel

end Cert.Readout

end
-- ==== Proof.KernelEntry.lean ====
/-
  The arrays the kernel's region finds when it is entered, named at their literal types, as the host's operations
  make them from the arguments; and each window's block at a grid point read off those arrays: point `t` of ten
  holds rows `1000 t … 1000 t + 999` of the flattened embedding and the whole of every other array.
-/
import proofs.«106727_g87316685128367_cont_sun_m_226_4_alg».proof.Proof.Gen.KernelIdeal.Frame
import proofs.«106727_g87316685128367_cont_sun_m_226_4_alg».proof.Proof.Spec
import Idealize.ShloMosaic.Lib.Pipeline.Value
import Idealize.ShloMosaic.Lib.StableHlo.Run
import Idealize.ShloMosaic.Lib.Tactic

set_option maxRecDepth 16384

noncomputable section

namespace Cert.Readout

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments and the arrays the region finds, at their literal types -/

abbrev argE (c : Dev nD) : Vec Ideal S10000x512x1x4 .f32 := m ((c : Thread nD τ).loc main_arg0)
abbrev argWl (c : Dev nD) : Vec Ideal S3x512x1 .f32 := m ((c : Thread nD τ).loc main_arg1)
abbrev argBl (c : Dev nD) : Vec Ideal S3x1 .f32 := m ((c : Thread nD τ).loc main_arg2)
abbrev argW1 (c : Dev nD) : Vec Ideal S512x1024 .f32 := m ((c : Thread nD τ).loc main_arg3)
abbrev argB1 (c : Dev nD) : Vec Ideal S1024 .f32 := m ((c : Thread nD τ).loc main_arg4)
abbrev argW2 (c : Dev nD) : Vec Ideal S1024x1 .f32 := m ((c : Thread nD τ).loc main_arg5)
abbrev argB2 (c : Dev nD) : Vec Ideal S1 .f32 := m ((c : Thread nD τ).loc main_arg6)

abbrev arrX (c : Dev nD) : Vec Ideal S10000x2048 .f32 := V m c main_v0
abbrev arrWint (c : Dev nD) : Vec Ideal S1x2048 .f32 := V m c main_v5
abbrev arrW1e (c : Dev nD) : Vec Ideal S2048x1024 .bf16 := V m c main_v10
abbrev arrB1 (c : Dev nD) : Vec Ideal S1x1024 .f32 := V m c main_v15
abbrev arrW2 (c : Dev nD) : Vec Ideal S1x1024 .f32 := V m c main_v16
abbrev arrBias (c : Dev nD) : Vec Ideal S1x1 .f32 := V m c main_v14

/-- The readout of the arguments on core `c`. -/
abbrev readout (c : Dev nD) : Vec Ideal S10000 .f32 :=
  G (argE m c) (argWl m c) (argBl m c) (argW1 m c) (argB1 m c) (argW2 m c) (argB2 m c)

/-- The result column `[10000, 1]`: the readout with a unit axis. -/
def column (c : Dev nD) : Vec Ideal S10000x1 .f32 := fun i => readout m c (ix1 (i 0))

/-! ## The host's preparation, as terms of the arguments -/

theorem arrX_eq (c : Dev nD) : arrX m c = shapeCast S10000x2048 (argE m c) shapeCasts_S10000x512x1x4_S10000x2048 := by
  show StableHlo.after hostOps0 (fun b => m (c, b)) (Proc.devRef .tc main_v0) = _
  after_results; rfl

theorem arrWint_eq (c : Dev nD) : arrWint m c
    = shapeCast S1x2048 (transpose S512x4 [1, 0] (concatenate S4x512 0 [⟨S3x512, shapeCast S3x512 (argWl m c) shapeCasts_S3x512x1_S3x512⟩,
        ⟨S1x512, broadcastInDim S1x512 ![] bcast_S_S1x512 (constant (F := Ideal) S_ .f32 0x00000000#32)⟩]
        concatenates_S3x512_S1x512_S4x512_d0) transposes_S4x512_S512x4_1_0) shapeCasts_S512x4_S1x2048 := by
  show StableHlo.after hostOps0 (fun b => m (c, b)) (Proc.devRef .tc main_v5) = _
  after_results; rfl

theorem arrW1e_eq (c : Dev nD) : arrW1e m c
    = truncf .bf16 (shapeCast S2048x1024 (Host.scatter scatter_S512x4x1024_S1_S512x1024_01_1_1_0 (fun _ b => b)
        (broadcastInDim S512x4x1024 ![] bcast_S_S512x4x1024 (constant (F := Ideal) S_ .f32 0x00000000#32))
        (broadcastInDim S1 ![] bcast_S_S1 (constantI S_ 32 3#32)) (argW1 m c)) shapeCasts_S512x4x1024_S2048x1024) bitsLt_bf16_f32 := by
  show StableHlo.after hostOps0 (fun b => m (c, b)) (Proc.devRef .tc main_v10) = _
  after_results; rfl

theorem arrB1_eq (c : Dev nD) : arrB1 m c = shapeCast S1x1024 (argB1 m c) shapeCasts_S1024_S1x1024 := by
  show StableHlo.after hostOps0 (fun b => m (c, b)) (Proc.devRef .tc main_v15) = _
  after_results; rfl

theorem arrW2_eq (c : Dev nD) : arrW2 m c = shapeCast S1x1024 (argW2 m c) shapeCasts_S1024x1_S1x1024 := by
  show StableHlo.after hostOps0 (fun b => m (c, b)) (Proc.devRef .tc main_v16) = _
  after_results; rfl

theorem arrBias_eq (c : Dev nD) : arrBias m c
    = shapeCast S1x1 (addf (Host.reduceAdd (argBl m c) (constant (F := Ideal) S_ .f32 0x00000000#32) reducesTo_S3x1_S_d0_1 h_S_)
        (shapeCast S_ (argB2 m c) shapeCasts_S1_S_)) shapeCasts_S_S1x1 := by
  show StableHlo.after hostOps0 (fun b => m (c, b)) (Proc.devRef .tc main_v14) = _
  after_results; rfl

/-! ## The blocks of a grid point -/

theorem hz : (![0, 0] : Fin 2 → Nat) = fun _ => 0 := funext fun a => by fin_cases a <;> rfl

/-- The printed index maps over the ten points: the embedding's and the result's blocks move with the point along
    the rows; every other window stays at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is node `1000 t + p`. -/
def node (t : Fin cfg0.N) (p : Fin 1000) : Fin 10000 :=
  ⟨1000 * t.val + p.val, by have := t.isLt; have hN : cfg0.N = 10 := N_0; have := p.isLt; omega⟩

theorem blockX (c : Dev nD) (t : Fin cfg0.N) (p : Fin 1000) (j : Fin 2048) :
    (iblk m c 0 t : Vec Ideal S1000x2048 .f32) (ix2 p j) = arrX m c (ix2 (node t p) j) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 1000 + 1 * p.val = 1000 * t.val + p.val; omega
  | ⟨1, _⟩ => show win0_0.index t (1 : Fin 2) * 2048 + 1 * j.val = j.val; omega

theorem blockWint (c : Dev nD) (t : Fin cfg0.N) (y : S1x2048.Idx) :
    (iblk m c 1 t : Vec Ideal S1x2048 .f32) y = arrWint m c y := by
  obtain ⟨-, -, e0, e1, -⟩ := idx_facts t
  unfold iblk
  rw [View.read_apply]
  show V m c main_v5 _ = V m c main_v5 _
  congr 1
  funext a
  apply Fin.ext
  match a with
  | ⟨0, _⟩ => show win0_1.index t (0 : Fin 2) * 1 + 1 * (y 0).val = (y 0).val; omega
  | ⟨1, _⟩ => show win0_1.index t (1 : Fin 2) * 2048 + 1 * (y 1).val = (y 1).val; omega

theorem blockW1e (c : Dev nD) (t : Fin cfg0.N) (y : S2048x1024.Idx) :
    (iblk m c 2 t : Vec Ideal S2048x1024 .bf16) y = arrW1e m c y := by
  obtain ⟨-, -, -, -, e0, e1, -⟩ := idx_facts t
  unfold iblk
  rw [View.read_apply]
  show V m c main_v10 _ = V m c main_v10 _
  congr 1
  funext a
  apply Fin.ext
  match a with
  | ⟨0, _⟩ => show win0_2.index t (0 : Fin 2) * 2048 + 1 * (y 0).val = (y 0).val; omega
  | ⟨1, _⟩ => show win0_2.index t (1 : Fin 2) * 1024 + 1 * (y 1).val = (y 1).val; omega

theorem blockB1 (c : Dev nD) (t : Fin cfg0.N) (y : S1x1024.Idx) :
    (iblk m c 3 t : Vec Ideal S1x1024 .f32) y = arrB1 m c y := by
  obtain ⟨-, -, -, -, -, -, e0, e1, -⟩ := idx_facts t
  unfold iblk
  rw [View.read_apply]
  show V m c main_v15 _ = V m c main_v15 _
  congr 1
  funext a
  apply Fin.ext
  match a with
  | ⟨0, _⟩ => show win0_3.index t (0 : Fin 2) * 1 + 1 * (y 0).val = (y 0).val; omega
  | ⟨1, _⟩ => show win0_3.index t (1 : Fin 2) * 1024 + 1 * (y 1).val = (y 1).val; omega

theorem blockW2 (c : Dev nD) (t : Fin cfg0.N) (y : S1x1024.Idx) :
    (iblk m c 4 t : Vec Ideal S1x1024 .f32) y = arrW2 m c y := by
  obtain ⟨-, -, -, -, -, -, -, -, e0, e1, -⟩ := idx_facts t
  unfold iblk
  rw [View.read_apply]
  show V m c main_v16 _ = V m c main_v16 _
  congr 1
  funext a
  apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega

theorem blockBias (c : Dev nD) (t : Fin cfg0.N) (y : S1x1.Idx) :
    (iblk m c 5 t : Vec Ideal S1x1 .f32) y = arrBias m c y := by
  obtain ⟨-, -, -, -, -, -, -, -, -, -, e0, e1, -⟩ := idx_facts t
  unfold iblk
  rw [View.read_apply]
  show V m c main_v14 _ = V m c main_v14 _
  congr 1
  funext a
  apply Fin.ext
  match a with
  | ⟨0, _⟩ => show win0_5.index t (0 : Fin 2) * 1 + 1 * (y 0).val = (y 0).val; omega
  | ⟨1, _⟩ => show win0_5.index t (1 : Fin 2) * 1 + 1 * (y 1).val = (y 1).val; omega

end Cert.Readout

end
-- ==== Proof.EntryTerms.lean ====
/-
  The arrays the kernel's windows stage, as the host prepares them from the arguments, read at an index.

  * the embedding `[10000, 512, 1, 4]` flattened to `[10000, 2048]`: lane `j` of node `n` is channel `j / 4`, residue `j % 4`;
  * the three linear heads' weights `[3, 512, 1]`, with a zero row appended, transposed and flattened to `[1, 2048]`:
    lane `4 c + r` holds `wl r c` for `r < 3` and zero for `r = 3`;
  * the first layer's bias `[1024]` and the output head's weights `[1024, 1]` viewed as rows `[1, 1024]`;
  * the one bias `[1, 1]`: the sum of the three linear biases (from zero) plus the output head's bias.
-/
import proofs.«106727_g87316685128367_cont_sun_m_226_4_alg».proof.Proof.Gen.KernelIdeal
import proofs.«106727_g87316685128367_cont_sun_m_226_4_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Mathlib.Algebra.BigOperators.Fin

noncomputable section

namespace Cert.Readout

open Idealize.ShloMosaic Idealize.ShloMosaic.ValueIdx Cert.KernelIdeal Cert.KernelIdeal.Facts₀

/-- The flattened embedding at node `n`, lane `j`. -/
theorem flat_apply (X : Vec Ideal S10000x512x1x4 .f32) (n : Fin 10000) (j : Fin 2048) :
    shapeCast S10000x2048 X shapeCasts_S10000x512x1x4_S10000x2048 (ix2 n j) = X (ix4 n (chan j) (0 : Fin 1) (resid j)) :=
  shapeCast_apply X _ (ix2 n j) (ix4 n (chan j) (0 : Fin 1) (resid j)) (by
    rw [Shape.rowMajor_val_two, Shape.rowMajor_val_four]
    show (((n : ℕ) * 512 + (j : ℕ) / 4) * 1 + 0) * 4 + (j : ℕ) % 4 = (n : ℕ) * 2048 + (j : ℕ)
    omega)

/-- The interleaved linear-head weights at lane `j`. -/
theorem interleaved_apply (A : Vec Ideal S3x512x1 .f32) (j : Fin 2048) :
    shapeCast S1x2048 (transpose S512x4 [1, 0] (concatenate S4x512 0 [⟨S3x512, shapeCast S3x512 A shapeCasts_S3x512x1_S3x512⟩,
        ⟨S1x512, broadcastInDim S1x512 ![] bcast_S_S1x512 (constant (F := Ideal) S_ .f32 0x00000000#32)⟩]
        concatenates_S3x512_S1x512_S4x512_d0) transposes_S4x512_S512x4_1_0) shapeCasts_S512x4_S1x2048 (ix2 (0 : Fin 1) j)
    = wInt (fun r c => A (ix3 r c (0 : Fin 1))) j := by
  refine (shapeCast_apply _ _ (ix2 (0 : Fin 1) j) (ix2 (chan j) (resid j)) ?_).trans ?_
  · rw [Shape.rowMajor_val_two, Shape.rowMajor_val_two]
    show ((j : ℕ) / 4) * 4 + (j : ℕ) % 4 = 0 * 2048 + (j : ℕ)
    omega
  refine (transpose_ix2_apply _ _ (chan j) (resid j)).trans ?_
  unfold wInt
  by_cases h : ((resid j : Fin 4) : ℕ) < 3
  · rw [dif_pos h]
    refine (concatenate_pair_apply_left (t := S4x512) (s₁ := S3x512) (s₂ := S1x512) 0 _ _ _ (ix2 (resid j) (chan j)) rfl (ix2 (⟨(resid j : ℕ), h⟩ : Fin 3) (chan j)) ?_).trans ?_
    · intro b
      match b with
      | ⟨0, _⟩ => rfl
      | ⟨1, _⟩ => rfl
    · exact shapeCast_apply A _ _ (ix3 (⟨(resid j : ℕ), h⟩ : Fin 3) (chan j) (0 : Fin 1)) (by
        rw [Shape.rowMajor_val_two, Shape.rowMajor_val_three]
        show (((resid j : ℕ)) * 512 + (chan j : ℕ)) * 1 + 0 = ((resid j : ℕ)) * 512 + (chan j : ℕ)
        omega)
  · rw [dif_neg h]
    have h3 : ((resid j : Fin 4) : ℕ) = 3 := by have := (resid j).isLt; omega
    refine (concatenate_pair_apply_right (t := S4x512) (s₁ := S3x512) (s₂ := S1x512) 0 _ _ _ (ix2 (resid j) (chan j)) rfl rfl (ix2 (0 : Fin 1) (chan j)) ?_ ?_).trans ?_
    · intro b hb
      match b, hb with
      | ⟨0, _⟩, hb => exact absurd rfl hb
      | ⟨1, _⟩, _ => rfl
    · show 0 + 3 = ((resid j : Fin 4) : ℕ)
      omega
    · rw [broadcastInDim_scalar_apply]
      exact Ideal.ofBits_zero_f32

/-- The first layer's bias viewed as a row. -/
theorem bias1_row_apply (B : Vec Ideal S1024 .f32) (k : Fin 1024) :
    shapeCast S1x1024 B shapeCasts_S1024_S1x1024 (ix2 (0 : Fin 1) k) = B (ix1 k) :=
  shapeCast_a_1a_apply B _ (0 : Fin 1) k

/-- The output head's weights `[1024, 1]` viewed as a row. -/
theorem head_row_apply (W : Vec Ideal S1024x1 .f32) (k : Fin 1024) :
    shapeCast S1x1024 W shapeCasts_S1024x1_S1x1024 (ix2 (0 : Fin 1) k) = W (ix2 k (0 : Fin 1)) :=
  shapeCast_apply W _ (ix2 (0 : Fin 1) k) (ix2 k (0 : Fin 1)) (by
    rw [Shape.rowMajor_val_two, Shape.rowMajor_val_two]
    show (k : ℕ) * 1 + 0 = 0 * 1024 + (k : ℕ)
    omega)

/-- The one bias: the three linear biases summed from zero, plus the output head's bias. -/
theorem bias_apply (Bl : Vec Ideal S3x1 .f32) (B2 : Vec Ideal S1 .f32) :
    shapeCast S1x1 (addf (Host.reduceAdd Bl (constant (F := Ideal) S_ .f32 0x00000000#32) reducesTo_S3x1_S_d0_1 h_S_)
        (shapeCast S_ B2 shapeCasts_S1_S_)) shapeCasts_S_S1x1 (ix2 (0 : Fin 1) (0 : Fin 1))
    = (0 + (Bl (ix2 (0 : Fin 3) (0 : Fin 1)) + Bl (ix2 (1 : Fin 3) (0 : Fin 1)) + Bl (ix2 (2 : Fin 3) (0 : Fin 1))))
        + B2 (ix1 (0 : Fin 1)) := by
  refine (shapeCast_apply _ _ (ix2 (0 : Fin 1) (0 : Fin 1)) ix0 ?_).trans ?_
  · rw [Shape.rowMajor_val_two]
    exact Shape.rowMajorPi_zero _ _
  rw [addf_apply, hostReduceAdd_apply, Ideal.hostReduceAdd_total _ (fun b => b.elim0)]
  congr 1
  · congr 1
    · exact Ideal.ofBits_zero_f32
    · rw [sum_idx2, Fin.sum_univ_three]
      simp only [Fin.sum_univ_one]
  · exact shapeCast_apply B2 _ ix0 (ix1 (0 : Fin 1)) (by
      rw [Shape.rowMajor_val_one]
      exact (Shape.rowMajorPi_zero _ _).symm)

end Cert.Readout

end
-- ==== Proof.LibScatterSet.lean ====
/-
  Reading a replacing scatter at one index.

  `Host.scatter d f x idx upd` is a left fold over the update indices in row-major order: the step for update
  index `j` replaces the entry at `d.resultIdx? j idx` (when that is an index of the operand) by `f` of the old
  entry and `upd j`.  For the replacing body `f = fun _ b => b` the entry at a target index `i'` after the fold
  is the update of the LAST update index landing on `i'`, or the operand's entry if none lands there.  The lemmas
  below say so in the two cases where the answer does not depend on the order: all landing updates carry the same
  value (in particular: exactly one lands), or none lands.  Everything is generic in the shapes, the dimension
  numbers, the element type and the index width.
-/
import Idealize.ShloMosaic.PureOps

namespace Idealize.ShloMosaic

section ScatterSet
variable {s si u : Shape} {α : Type} {w : Nat}

/-- The fold of the replacing step over ANY list `l` of update positions, from ANY accumulator `r`, read at `i'`:
    if every position of `l` that lands on `i'` carries the value `v`, and either some position of `l` lands on
    `i'` or the accumulator already holds `v` there, the result holds `v` at `i'`.  Induction on `l` with the
    accumulator general: after the head's step either a later position still lands on `i'`, or the head was the
    last to land (its step wrote `v`), or the head missed `i'` and left the entry as it was. -/
theorem Host.scatter_set_foldl (d : ScatterDims s si u) (idx : IVec si w) (upd : u.Idx → α) (i' : s.Idx) (v : α) :
    ∀ (l : List (Fin u.numel)) (r : s.Idx → α),
      (∀ n ∈ l, d.resultIdx? (u.rowMajor.symm n) idx = some i' → upd (u.rowMajor.symm n) = v) →
      ((∃ n ∈ l, d.resultIdx? (u.rowMajor.symm n) idx = some i') ∨ r i' = v) →
      (l.foldl (fun r n =>
          match d.resultIdx? (u.rowMajor.symm n) idx with
          | some i => fun i' => if i' = i then (fun (_ b : α) => b) (r i) (upd (u.rowMajor.symm n)) else r i'
          | none => r) r) i' = v := by
  intro l
  induction l with
  | nil =>
    intro r _ h
    rcases h with ⟨n, hn, _⟩ | h
    · exact absurd hn List.not_mem_nil
    · exact h
  | cons a t ih =>
    intro r hall hex
    rw [List.foldl_cons]
    apply ih
    · intro n hn
      exact hall n (List.mem_cons_of_mem _ hn)
    · by_cases hmem : ∃ n ∈ t, d.resultIdx? (u.rowMajor.symm n) idx = some i'
      · exact Or.inl hmem
      · right
        generalize hga : d.resultIdx? (u.rowMajor.symm a) idx = o
        cases o with
        | some i =>
          show (if i' = i then upd (u.rowMajor.symm a) else r i') = v
          by_cases hii : i' = i
          · rw [if_pos hii]
            exact hall a List.mem_cons_self (by rw [hga, hii])
          · rw [if_neg hii]
            rcases hex with ⟨n, hn, hgn⟩ | h
            · rcases List.mem_cons.1 hn with hna | hn'
              · rw [hna, hga] at hgn
                exact absurd (Option.some.inj hgn).symm hii
              · exact absurd ⟨n, hn', hgn⟩ hmem
            · exact h
        | none =>
          show r i' = v
          rcases hex with ⟨n, hn, hgn⟩ | h
          · rcases List.mem_cons.1 hn with hna | hn'
            · rw [hna, hga] at hgn
              cases hgn
            · exact absurd ⟨n, hn', hgn⟩ hmem
          · exact h

/-- A replacing scatter read at `i'`: if every update index that lands on `i'` carries the value `v`, and either
    some update index lands on `i'` or the operand already holds `v` there, the result holds `v` at `i'`.
    (Every position of `Fin u.numel` is in the fold's list, and the row-major numbering reaches every update
    index.) -/
theorem Host.scatter_set_apply (d : ScatterDims s si u) (x : s.Idx → α) (idx : IVec si w) (upd : u.Idx → α)
    (i' : s.Idx) (v : α)
    (hall : ∀ j, d.resultIdx? j idx = some i' → upd j = v)
    (hex : (∃ j, d.resultIdx? j idx = some i') ∨ x i' = v) :
    Host.scatter d (fun _ b => b) x idx upd i' = v := by
  unfold Host.scatter
  apply Host.scatter_set_foldl
  · intro n _ h
    exact hall _ h
  · rcases hex with ⟨j, hj⟩ | h
    · left
      refine ⟨u.rowMajor j, List.mem_finRange _, ?_⟩
      rw [Equiv.symm_apply_apply]
      exact hj
    · right
      exact h

/-- HIT: the update index `j0` lands on `i'` and is the only one that does; the result at `i'` is `upd j0`. -/
theorem Host.scatter_set_hit (d : ScatterDims s si u) (x : s.Idx → α) (idx : IVec si w) (upd : u.Idx → α)
    (i' : s.Idx) (j0 : u.Idx) (h0 : d.resultIdx? j0 idx = some i')
    (huniq : ∀ j, d.resultIdx? j idx = some i' → j = j0) :
    Host.scatter d (fun _ b => b) x idx upd i' = upd j0 :=
  Host.scatter_set_apply d x idx upd i' (upd j0) (fun j hj => by rw [huniq j hj]) (Or.inl ⟨j0, h0⟩)

/-- MISS: no update index lands on `i'`; the result at `i'` is the operand's entry. -/
theorem Host.scatter_set_miss (d : ScatterDims s si u) (x : s.Idx → α) (idx : IVec si w) (upd : u.Idx → α)
    (i' : s.Idx) (hmiss : ∀ j, d.resultIdx? j idx ≠ some i') :
    Host.scatter d (fun _ b => b) x idx upd i' = x i' :=
  Host.scatter_set_apply d x idx upd i' (x i') (fun j hj => absurd hj (hmiss j)) (Or.inr rfl)

end ScatterSet

end Idealize.ShloMosaic
-- ==== Proof.ExpandedWeights.lean ====
/-
  The first-layer weights as the host expands them before the launch: `w1` written into slab 3 of a zero
  [512, 4, 1024] array, flattened to [2048, 1024]: row `4 c + 3` is row `c` of `w1`, every other row is zero.

  The scatter has one scatter index, the constant 3, on operand axis 1 (inserted); its window axes are the updates'
  two axes, going to operand axes 0 and 2.  So update index `(c, k)` lands on operand index `(c, 3, k)`: the map is
  injective, and an operand index with middle coordinate other than 3 is never written.  The reshape reads lane
  `j = 4 c + r` of the flat array at `(c, r)` of the operand, and the rounding to bf16 is the identity on the
  extended reals.
-/
import proofs.«106727_g87316685128367_cont_sun_m_226_4_alg».proof.Proof.Gen.KernelIdeal
import proofs.«106727_g87316685128367_cont_sun_m_226_4_alg».proof.Proof.Spec
import proofs.«106727_g87316685128367_cont_sun_m_226_4_alg».proof.Proof.LibScatterSet
import Idealize.ShloMosaic.Lib.ValueIdx
import Idealize.ShloMosaic.Lib.Pipeline.Value
import Idealize.ShloMosaic.Lib.IdealHost

noncomputable section

namespace Cert.Readout

open Idealize.ShloMosaic Idealize.ShloMosaic.ValueIdx Cert.KernelIdeal Cert.KernelIdeal.Facts₀

/-- The scatter indices: one entry, the constant 3. -/
abbrev slab3 : IVec S1 32 := broadcastInDim S1 ![] bcast_S_S1 (constantI S_ 32 3#32)

/-- The scatter's dimension numbers. -/
abbrev slabDims : ScatterDims S512x4x1024 S1 S512x1024 := scatter_S512x4x1024_S1_S512x1024_01_1_1_0

/-! The window's start per operand axis: the index 3 on axis 1 (the one axis the index map names), 0 elsewhere. -/
theorem slab_start_0 (j : S512x1024.Idx) : slabDims.start j slab3 0 = 0 := rfl
theorem slab_start_1 (j : S512x1024.Idx) : slabDims.start j slab3 1 = 3 := rfl
theorem slab_start_2 (j : S512x1024.Idx) : slabDims.start j slab3 2 = 0 := rfl
/-! The window coordinate per operand axis: the updates' axes 0 and 1 go to the kept operand axes 0 and 2. -/
theorem slab_window_0 (j : S512x1024.Idx) : slabDims.window j 0 = (j 0).val := rfl
theorem slab_window_1 (j : S512x1024.Idx) : slabDims.window j 1 = 0 := rfl
theorem slab_window_2 (j : S512x1024.Idx) : slabDims.window j 2 = (j 1).val := rfl

/-- Update index `(c, k)` lands on operand index `(c, 3, k)`, always inside the operand. -/
theorem slab_resultIdx (j : S512x1024.Idx) :
    slabDims.resultIdx? j slab3 = some (ix3 (j 0) (3 : Fin 4) (j 1)) := by
  have h0 := idx2_lt0 j
  have h1 := idx2_lt1 j
  have h : ∀ a, 0 ≤ slabDims.start j slab3 a + slabDims.window j a
      ∧ slabDims.start j slab3 a + slabDims.window j a < S512x4x1024.size a := by
    intro a
    match a with
    | ⟨0, _⟩ =>
      show 0 ≤ slabDims.start j slab3 0 + (slabDims.window j 0 : Int)
        ∧ slabDims.start j slab3 0 + (slabDims.window j 0 : Int) < (512 : Nat)
      rw [slab_start_0, slab_window_0]; omega
    | ⟨1, _⟩ =>
      show 0 ≤ slabDims.start j slab3 1 + (slabDims.window j 1 : Int)
        ∧ slabDims.start j slab3 1 + (slabDims.window j 1 : Int) < (4 : Nat)
      rw [slab_start_1, slab_window_1]; omega
    | ⟨2, _⟩ =>
      show 0 ≤ slabDims.start j slab3 2 + (slabDims.window j 2 : Int)
        ∧ slabDims.start j slab3 2 + (slabDims.window j 2 : Int) < (1024 : Nat)
      rw [slab_start_2, slab_window_2]; omega
  unfold ScatterDims.resultIdx?
  rw [dif_pos h]
  refine congrArg some (funext fun a => Fin.ext ?_)
  match a with
  | ⟨0, _⟩ =>
    show (slabDims.start j slab3 0 + (slabDims.window j 0 : Int)).toNat = (j 0).val
    rw [slab_start_0, slab_window_0]; omega
  | ⟨1, _⟩ =>
    show (slabDims.start j slab3 1 + (slabDims.window j 1 : Int)).toNat = 3
    rw [slab_start_1, slab_window_1]; rfl
  | ⟨2, _⟩ =>
    show (slabDims.start j slab3 2 + (slabDims.window j 2 : Int)).toNat = (j 1).val
    rw [slab_start_2, slab_window_2]; omega

/-- The expanded weight matrix at row `j`, column `k`. -/
theorem expanded_apply (W : Vec Ideal S512x1024 .f32) (j : Fin 2048) (k : Fin 1024) :
    (truncf .bf16 (shapeCast S2048x1024 (Host.scatter scatter_S512x4x1024_S1_S512x1024_01_1_1_0 (fun _ b => b)
        (broadcastInDim S512x4x1024 ![] bcast_S_S512x4x1024 (constant (F := Ideal) S_ .f32 0x00000000#32))
        (broadcastInDim S1 ![] bcast_S_S1 (constantI S_ 32 3#32)) W) shapeCasts_S512x4x1024_S2048x1024) bitsLt_bf16_f32
      : FVec Ideal S2048x1024 .bf16) (ix2 j k)
    = w1Exp (fun c k => W (ix2 c k)) j k := by
  -- rounding is the identity on the extended reals; lane `j` of the flat array is `(j / 4, j % 4)` of the operand
  refine (truncf_apply (ψ := .bf16) _ bitsLt_bf16_f32 _).trans ((shapeCast_apply _ _ (ix2 j k) (ix3 (chan j) (resid j) k) ?_).trans ?_)
  · rw [Shape.rowMajor_val_three, Shape.rowMajor_val_two]
    show (j.val / 4 * 4 + j.val % 4) * 1024 + k.val = j.val * 1024 + k.val
    omega
  unfold w1Exp
  by_cases hr : (resid j).val = 3
  · -- slab 3: exactly the update index `(chan j, k)` lands here
    rw [if_pos hr, show resid j = (3 : Fin 4) from Fin.ext hr]
    refine Host.scatter_set_hit slabDims _ slab3 W (ix3 (chan j) (3 : Fin 4) k) (ix2 (chan j) k)
      (slab_resultIdx _) ?_
    intro j' hj'
    rw [slab_resultIdx] at hj'
    have e := Option.some.inj hj'
    have e0 : j' 0 = chan j := congrFun e 0
    have e2 : j' 1 = k := congrFun e 2
    funext a
    match a with
    | ⟨0, _⟩ => exact e0
    | ⟨1, _⟩ => exact e2
  · -- another slab: every update lands in slab 3, so the zero operand shows
    rw [if_neg hr]
    refine (Host.scatter_set_miss slabDims _ slab3 W _ ?_).trans ?_
    · intro j' hj'
      rw [slab_resultIdx] at hj'
      have e1 : (3 : Fin 4) = resid j := congrFun (Option.some.inj hj') 1
      exact hr (by rw [← e1]; rfl)
    · rw [broadcastInDim_scalar_apply, constant_apply, Ideal.ofBits_zero_f32]

end Cert.Readout

end
-- ==== Proof.Body.lean ====
/-
  What the kernel body stores for one row of its block, as a formula of the rows and vectors it loads.
-/
import proofs.«106727_g87316685128367_cont_sun_m_226_4_alg».proof.Proof.Gen.KernelIdeal.Skeleton
import proofs.«106727_g87316685128367_cont_sun_m_226_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Readout

open Idealize.ShloMosaic Idealize.ShloMosaic.ValueIdx Cert.KernelIdeal Cert.KernelIdeal.Gen

/-! ## Layout and reduction steps read at an index -/

/-- An `[a]` array cast to the column `[a, 1]` reads, at `(i, u)`, the operand at `i`: row-major position
    `i * 1 + u` with `u = 0` is position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over the lanes (axis 1) of an `[a, b]` array from the zero accumulator reads, at row `p`, the sum of that
    row's `b` entries. -/
theorem laneSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun c => Fin.ext ?_)
  match c with
  | ⟨0, _⟩ => rfl
  | ⟨1, _⟩ => rfl

/-- The logistic of an array reads, at an index, the logistic of the entry there. -/
theorem logistic_apply {s : Shape} {φ : FTy} (v : FVec Ideal s φ) (i : s.Idx) : logistic v i = Ideal.logistic (v i) := rfl

/-! ## The matrix product read at an entry -/

/-- The left operand's index at output `i` and contraction index `q`: its row is the output's row. -/
theorem lhs_mm_0 (i : S1000x1024.Idx) (q : dot_S1000x2048_S2048x1024_S1000x1024_1_0_0_1_n_n.contr.Idx) :
    (dot_S1000x2048_S2048x1024_S1000x1024_1_0_0_1_n_n.lhsIdx i q 0).val = (i 0).val := by
  unfold DotDims.lhsIdx
  rw [dif_neg (show ¬(0 : Fin S1000x2048.rank) ∈ dot_S1000x2048_S2048x1024_S1000x1024_1_0_0_1_n_n.lhsBatch by decide), dif_pos (show (0 : Fin S1000x2048.rank) ∈ dot_S1000x2048_S2048x1024_S1000x1024_1_0_0_1_n_n.lhsNonContracting by decide)]
  rfl
/-- … and its lane is the contracted coordinate. -/
theorem lhs_mm_1 (i : S1000x1024.Idx) (q : dot_S1000x2048_S2048x1024_S1000x1024_1_0_0_1_n_n.contr.Idx) :
    (dot_S1000x2048_S2048x1024_S1000x1024_1_0_0_1_n_n.lhsIdx i q 1).val = (q ⟨0, by decide⟩).val :=
  dot_S1000x2048_S2048x1024_S1000x1024_1_0_0_1_n_n.lhsIdx_val_of_single rfl i q
/-- The right operand's index: its row is the contracted coordinate. -/
theorem rhs_mm_0 (i : S1000x1024.Idx) (q : dot_S1000x2048_S2048x1024_S1000x1024_1_0_0_1_n_n.contr.Idx) :
    (dot_S1000x2048_S2048x1024_S1000x1024_1_0_0_1_n_n.rhsIdx i q 0).val = (q ⟨0, by decide⟩).val :=
  dot_S1000x2048_S2048x1024_S1000x1024_1_0_0_1_n_n.rhsIdx_val_of_single rfl i q
/-- … and its column is the output's column. -/
theorem rhs_mm_1 (i : S1000x1024.Idx) (q : dot_S1000x2048_S2048x1024_S1000x1024_1_0_0_1_n_n.contr.Idx) :
    (dot_S1000x2048_S2048x1024_S1000x1024_1_0_0_1_n_n.rhsIdx i q 1).val = (i 1).val := by
  unfold DotDims.rhsIdx
  rw [dif_neg (show ¬(1 : Fin S2048x1024.rank) ∈ dot_S1000x2048_S2048x1024_S1000x1024_1_0_0_1_n_n.rhsBatch by decide), dif_pos (show (1 : Fin S2048x1024.rank) ∈ dot_S1000x2048_S2048x1024_S1000x1024_1_0_0_1_n_n.rhsNonContracting by decide)]
  rfl

/-- The `[1000, 2048] · [2048, 1024]` product into a zero accumulator reads, at `(p, k)`, the sum over the 2048
    contracted lanes of row `p` of the left factor against column `k` of the right. -/
theorem matmul_at (lhs : FVec Ideal S1000x2048 .bf16) (rhs : FVec Ideal S2048x1024 .bf16) (p : Fin 1000) (k : Fin 1024) :
    matmul (F := Ideal) dot_S1000x2048_S2048x1024_S1000x1024_1_0_0_1_n_n none lhs rhs (constant (F := Ideal) S1000x1024 .f32 0x00000000#32) (ix2 p k)
      = ∑ j : Fin 2048, lhs (ix2 p j) * rhs (ix2 j k) := by
  refine (Ideal.matmul_constant_zero_apply dot_S1000x2048_S2048x1024_S1000x1024_1_0_0_1_n_n none lhs rhs (ix2 p k)).trans ?_
  rw [← Equiv.sum_comp (ValueIdx.contrEquiv1 dot_S1000x2048_S2048x1024_S1000x1024_1_0_0_1_n_n 2048 rfl rfl).symm]
  refine Finset.sum_congr rfl fun j _ => ?_
  have hk := ValueIdx.contrEquiv1_symm_val dot_S1000x2048_S2048x1024_S1000x1024_1_0_0_1_n_n 2048 rfl rfl j
  have el : dot_S1000x2048_S2048x1024_S1000x1024_1_0_0_1_n_n.lhsIdx (ix2 p k) ((ValueIdx.contrEquiv1 dot_S1000x2048_S2048x1024_S1000x1024_1_0_0_1_n_n 2048 rfl rfl).symm j) = ix2 p j := funext fun a => Fin.ext (by
    match a with
    | ⟨0, _⟩ => exact lhs_mm_0 _ _
    | ⟨1, _⟩ => exact (lhs_mm_1 _ _).trans hk)
  have er : dot_S1000x2048_S2048x1024_S1000x1024_1_0_0_1_n_n.rhsIdx (ix2 p k) ((ValueIdx.contrEquiv1 dot_S1000x2048_S2048x1024_S1000x1024_1_0_0_1_n_n 2048 rfl rfl).symm j) = ix2 j k := funext fun a => Fin.ext (by
    match a with
    | ⟨0, _⟩ => exact (rhs_mm_0 _ _).trans hk
    | ⟨1, _⟩ => exact rhs_mm_1 _ _)
  rw [el, er]

/-- Row `p` of the stored block: the lane sum of `x0 · x1`, plus the sum over hidden units of
    `silu (x0 · x2 + x3) · x4`, plus the bias `x5`. -/
theorem body_row (x0 : Vec Ideal S1000x2048 .f32) (x1 : Vec Ideal S1x2048 .f32) (x2 : Vec Ideal S2048x1024 .bf16)
    (x3 x4 : Vec Ideal S1x1024 .f32) (x5 : Vec Ideal S1x1 .f32) (p : Fin 1000) :
    k0_pay1 (F := Ideal) x0 x1 x2 x3 x4 x5 (ix2 p (0 : Fin 1))
    = ((∑ j : Fin 2048, x0 (ix2 p j) * x1 (ix2 (0 : Fin 1) j))
        + (∑ k : Fin 1024, silu ((∑ j : Fin 2048, x0 (ix2 p j) * x2 (ix2 j k)) + x3 (ix2 (0 : Fin 1) k)) * x4 (ix2 (0 : Fin 1) k)))
      + x5 (ix2 (0 : Fin 1) (0 : Fin 1)) := by
  unfold k0_pay1
  simp only [shapeCast_self]
  rw [addf_apply, addf_apply]
  -- each of the two sums is a column cast of a lane sum, read at row p
  have hA : ∀ (u : FVec Ideal S1000x2048 .f32) (h₁ h₂ h₃ h₄),
      shapeCast S1000x1 (multiReduction (F := Ideal) .add [1] S1000 u 0x00000000#32 h₁ h₂ h₃) h₄ (ix2 p (0 : Fin 1))
        = ∑ j : Fin 2048, u (ix2 p j) :=
    fun u h₁ h₂ h₃ h₄ => (shapeCast_a_a1_apply _ h₄ p 0).trans (laneSum_apply u h₁ h₂ h₃ p)
  have hB : ∀ (u : FVec Ideal S1000x1024 .f32) (h₁ h₂ h₃ h₄),
      shapeCast S1000x1 (multiReduction (F := Ideal) .add [1] S1000 u 0x00000000#32 h₁ h₂ h₃) h₄ (ix2 p (0 : Fin 1))
        = ∑ k : Fin 1024, u (ix2 p k) :=
    fun u h₁ h₂ h₃ h₄ => (shapeCast_a_a1_apply _ h₄ p 0).trans (laneSum_apply u h₁ h₂ h₃ p)
  refine congrArg₂ (· + ·) (congrArg₂ (· + ·) ((hA _ _ _ _ _).trans ?_) ((hB _ _ _ _ _).trans ?_)) ?_
  -- the linear heads: lane j of row p times lane j of the broadcast row x1
  · refine Finset.sum_congr rfl fun j _ => ?_
    rw [mulf_apply, broadcastTo_1b_ab_apply]
  -- the hidden layer: at unit k the entry is h · σ(h) · x4 k with h = (row p of x0) · (column k of x2) + x3 k;
  -- rounding to the narrower format is the identity on the extended reals
  · refine Finset.sum_congr rfl fun k _ => ?_
    rw [mulf_apply, mulf_apply, logistic_apply, broadcastTo_1b_ab_apply, addf_apply, matmul_at, broadcastTo_1b_ab_apply]
    rfl
  -- the bias: the one entry of x5 broadcast down the column
  · exact broadcastTo_1b_ab_apply x5 _ p 0

end Cert.Readout

end
-- ==== Proof.KernelValue.lean ====
/-
  The idealized kernel's program computes the readout.

  Row `p` of what grid point `t` stores is the body's formula of its blocks; the blocks are the host-prepared
  arrays read at rows `1000 t + p`; those arrays are the arguments rearranged; and the rearrangement law of the
  specification gives the readout at node `1000 t + p`.  The ten blocks tile the result column, so the column
  ends holding the readout everywhere.
-/
import proofs.«106727_g87316685128367_cont_sun_m_226_4_alg».proof.Proof.KernelEntry
import proofs.«106727_g87316685128367_cont_sun_m_226_4_alg».proof.Proof.EntryTerms
import proofs.«106727_g87316685128367_cont_sun_m_226_4_alg».proof.Proof.ExpandedWeights
import proofs.«106727_g87316685128367_cont_sun_m_226_4_alg».proof.Proof.Body
import Idealize.ShloMosaic.Lib.Pipeline.Value
import Idealize.ShloMosaic.Lib.Tactic

set_option maxRecDepth 16384

noncomputable section

namespace Cert.Readout

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a point writes -/

/-- Row `p` of what point `t` stores is the readout at node `1000 t + p`. -/
theorem stored_row (c : Dev nD) (t : Fin cfg0.N) (p : Fin 1000) :
    k0_pay1 (F := Ideal) (iblk m c 0 t) (iblk m c 1 t) (iblk m c 2 t) (iblk m c 3 t) (iblk m c 4 t) (iblk m c 5 t) (ix2 p (0 : Fin 1))
    = readout m c (ix1 (node t p)) := by
  refine (body_row (iblk m c 0 t) (iblk m c 1 t) (iblk m c 2 t) (iblk m c 3 t) (iblk m c 4 t) (iblk m c 5 t) p).trans ?_
  have h1 : ∀ j : Fin 2048, (iblk m c 0 t : Vec Ideal S1000x2048 .f32) (ix2 p j)
      = argE m c (ix4 (node t p) (chan j) (0 : Fin 1) (resid j)) := fun j => by
    rw [blockX, arrX_eq]; exact flat_apply _ _ _
  have h2 : ∀ j : Fin 2048, (iblk m c 1 t : Vec Ideal S1x2048 .f32) (ix2 (0 : Fin 1) j)
      = wInt (fun r c' => argWl m c (ix3 r c' (0 : Fin 1))) j := fun j => by
    rw [blockWint, arrWint_eq]; exact interleaved_apply _ _
  have h3 : ∀ (j : Fin 2048) (k : Fin 1024), (iblk m c 2 t : Vec Ideal S2048x1024 .bf16) (ix2 j k)
      = w1Exp (fun c' k => argW1 m c (ix2 c' k)) j k := fun j k => by
    rw [blockW1e, arrW1e_eq]; exact expanded_apply _ _ _
  have h4 : ∀ k : Fin 1024, (iblk m c 3 t : Vec Ideal S1x1024 .f32) (ix2 (0 : Fin 1) k) = argB1 m c (ix1 k) := fun k => by
    rw [blockB1, arrB1_eq]; exact bias1_row_apply _ _
  have h5 : ∀ k : Fin 1024, (iblk m c 4 t : Vec Ideal S1x1024 .f32) (ix2 (0 : Fin 1) k) = argW2 m c (ix2 k (0 : Fin 1)) := fun k => by
    rw [blockW2, arrW2_eq]; exact head_row_apply _ _
  have h6 : (iblk m c 5 t : Vec Ideal S1x1 .f32) (ix2 (0 : Fin 1) (0 : Fin 1))
      = (0 + (argBl m c (ix2 (0 : Fin 3) (0 : Fin 1)) + argBl m c (ix2 (1 : Fin 3) (0 : Fin 1)) + argBl m c (ix2 (2 : Fin 3) (0 : Fin 1))))
        + argB2 m c (ix1 (0 : Fin 1)) := by
    rw [blockBias, arrBias_eq]; exact bias_apply _ _
  simp only [h1, h2, h3, h4, h5, h6]
  exact interleaved_eq (fun n c' r => argE m c (ix4 n c' (0 : Fin 1) r)) (fun r c' => argWl m c (ix3 r c' (0 : Fin 1)))
    (fun r => argBl m c (ix2 r (0 : Fin 1))) (fun c' k => argW1 m c (ix2 c' k)) (fun k => argB1 m c (ix1 k))
    (fun k => argW2 m c (ix2 k (0 : Fin 1))) (argB2 m c (ix1 (0 : Fin 1))) (node t p)

/-- What point `t` writes back is block `t` of the result column. -/
theorem flushed_eq (c : Dev nD) (t : Fin cfg0.N) :
    (dats m 0 c).flushed 6 t = ((cfg0.win 6).blk t).view.read (Elt Ideal) (column m c) := by
  show (cfg0.win 6).cut (grid0.coords t) ((dats m 0 c).after 6 t) = _
  rw [after0_6]
  unfold out0_6
  rw [View.canon_unit_zero hz]
  simp only [View.ld_unit_zero (S := S1000x2048) hz, View.ld_unit_zero (S := S1x2048) hz, View.ld_unit_zero (S := S2048x1024) hz,
    View.ld_unit_zero (S := S1x1024) hz, View.ld_unit_zero (S := S1x1) hz]
  obtain ⟨-, -, -, -, -, -, -, -, -, -, -, -, e0, e1⟩ := idx_facts t
  funext j
  have hj0 : (j 0).val < 1000 := (j 0).isLt
  have hj1 : (j 1).val < 1 := (j 1).isLt
  show k0_pay1 (F := Ideal) (iblk m c 0 t) (iblk m c 1 t) (iblk m c 2 t) (iblk m c 3 t) (iblk m c 4 t) (iblk m c 5 t) j
    = column m c (((cfg0.win 6).blk t).view.emb j)
  have hj : j = ix2 (⟨(j 0).val, hj0⟩ : Fin 1000) (0 : Fin 1) := by
    funext a
    apply Fin.ext
    match a with
    | ⟨0, _⟩ => rfl
    | ⟨1, _⟩ => show (j 1).val = 0; omega
  have hemb : (((cfg0.win 6).blk t).view.emb j) = ix2 (node t ⟨(j 0).val, hj0⟩) (0 : Fin 1) := by
    funext a
    apply Fin.ext
    match a with
    | ⟨0, _⟩ => show win0_6.index t (0 : Fin 2) * 1000 + 1 * (j 0).val = 1000 * t.val + (j 0).val; omega
    | ⟨1, _⟩ => show win0_6.index t (1 : Fin 2) * 1 + 1 * (j 1).val = 0; omega
  rw [hemb]
  refine (congrArg (k0_pay1 (F := Ideal) (iblk m c 0 t) (iblk m c 1 t) (iblk m c 2 t) (iblk m c 3 t) (iblk m c 4 t) (iblk m c 5 t)) hj).trans ?_
  exact stored_row m c t ⟨(j 0).val, hj0⟩

/-- An index of the column is in point `t`'s block iff each coordinate is in the block's range. -/
theorem mem_blk (t : Fin cfg0.N) (i : S10000x1.Idx) :
    i ∈ ((cfg0.win 6).blk t).view.set ↔ ∀ a : Fin 2, win0_6.index t a * S1000x1.size a ≤ (i a).val ∧ (i a).val < win0_6.index t a * S1000x1.size a + S1000x1.size a := by
  show i ∈ ((View.whole main_v17).slice (win0_6.rect t)).set ↔ _
  rw [View.set_slice_whole, Rect.mem_set_unit]
  exact Iff.rfl

/-- The ten blocks tile the column: row `r` is in the block of point `r / 1000`. -/
theorem cover (i : S10000x1.Idx) : ∃ t : Fin cfg0.N, (cfg0.win 6).flush t = true ∧ i ∈ ((cfg0.win 6).blk t).view.set := by
  have hi0 : (i 0).val < 10000 := (i 0).isLt
  have hi1 : (i 1).val < 1 := (i 1).isLt
  have hN : cfg0.N = 10 := N_0
  have ht : (i 0).val / 1000 < cfg0.N := by omega
  obtain ⟨-, -, -, -, -, -, -, -, -, -, -, -, e0, e1⟩ := idx_facts ⟨(i 0).val / 1000, ht⟩
  refine ⟨⟨(i 0).val / 1000, ht⟩, flush0_6 _, ?_⟩
  rw [mem_blk]
  intro a
  match a with
  | ⟨0, _⟩ =>
    show win0_6.index ⟨(i 0).val / 1000, ht⟩ (0 : Fin 2) * 1000 ≤ (i 0).val ∧ (i 0).val < win0_6.index ⟨(i 0).val / 1000, ht⟩ (0 : Fin 2) * 1000 + 1000
    rw [e0]
    show (i 0).val / 1000 * 1000 ≤ (i 0).val ∧ (i 0).val < (i 0).val / 1000 * 1000 + 1000
    omega
  | ⟨1, _⟩ =>
    show win0_6.index ⟨(i 0).val / 1000, ht⟩ (1 : Fin 2) * 1 ≤ (i 1).val ∧ (i 1).val < win0_6.index ⟨(i 0).val / 1000, ht⟩ (1 : Fin 2) * 1 + 1
    rw [e1]
    omega

/-- The result column after the region is the readout with a unit axis. -/
theorem final_column (c : Dev nD) : (dats m 0 c).arrAt 6 cfg0.N = column m c :=
  (dats m 0 c).arrAt_eq_of_cover 6 (column m c) (fun t _ => flushed_eq m c t) cover

end Cert.Readout

end
-- ==== Proof.KernelRun.lean ====
/-
  The run of the idealized kernel's program: after the region the host drops the result column's unit axis, so the
  program's result `[10000]` is the readout of the arguments, and the arguments end as they were launched.
-/
import proofs.«106727_g87316685128367_cont_sun_m_226_4_alg».proof.Proof.KernelValue
import Idealize.ShloMosaic.Lib.StableHlo.Run

noncomputable section

namespace Cert.Readout

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The column with its unit axis dropped is the readout. -/
theorem column_flat (c : Dev nD) : shapeCast S10000 (column m c) shapeCasts_S10000x1_S10000 = readout m c := by
  funext i
  obtain ⟨n, rfl⟩ : ∃ n : Fin 10000, i = ix1 n := ⟨i 0, eq_ix1 (n := 10000) i⟩
  refine (shapeCast_apply (column m c) _ (ix1 n) (ix2 n (0 : Fin 1)) ?_).trans rfl
  rw [Shape.rowMajor_val_two, Shape.rowMajor_val_one]
  show (n : ℕ) * 1 + 0 = (n : ℕ)
  omega

/-- The program's result after the host's last operation. -/
theorem result_eq (c : Dev nD) :
    Pipeline.afterTail₀ cfgs (dats m) 0 (V0 m) [hostOps1] c main_v18 = readout m c := by
  unfold Pipeline.afterTail₀
  show StableHlo.after hostOps1 _ (Proc.devRef .tc main_v18) = _
  after_results
  have hcol : Pipeline.withArrays (cfgs 0).spec c (V0 m c) (fun w => (dats m 0 c).arrAt w (cfgs 0).N) (Proc.devRef .tc main_v17)
      = column m c :=
    (Pipeline.withArrays_arr spec0 launch0.win.arr_inj c _ _ 6).trans (final_column m c)
  rw [hcol]
  exact column_flat m c

/-- Every weakly fair execution of the idealized kernel's program ends with its result at the readout of the
    arguments and the arguments unchanged. -/
theorem kernel_run : θ_run defs (onTc (τ := τ) (main (F := Ideal))) ⟨m, fun _ => 0, ρ⟩ (fun r => ∀ c : Dev nD,
      r.2.mem ((c.tc : Thread nD τ).loc main_v18) = readout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Readout

end
-- ==== Proof.RefValue.lean ====
/-
  The reference program's result, read one operation at a time, is the readout `G` of the seven arguments.

  The program slices the embedding by residue, multiplies each of the first three slices with its own weight column
  and adds that head's bias; the fourth slice goes through the hidden layer, the activation written out as
  `h * (1 / (1 + exp (-h)))`, and the output head with its bias.  The four columns are stacked along a new leading
  axis and summed over it from zero.  Each lemma below reads one stage at an index given by its coordinates, so
  that every stage's index is a literal tuple and the index arithmetic of reshapes (row-major position, quotient
  and remainder) is settled once, where it arises.
-/
import proofs.«106727_g87316685128367_cont_sun_m_226_4_alg».proof.Proof.Gen.ReferenceIdeal.Read
import proofs.«106727_g87316685128367_cont_sun_m_226_4_alg».proof.Proof.Spec
import Idealize.ShloMosaic.Lib.IdealHost

noncomputable section

namespace Cert.Readout

open Idealize.ShloMosaic Idealize.ShloMosaic.ValueIdx Cert.ReferenceIdeal Cert.ReferenceIdeal.Read

variable (x0 : (⟨S10000x512x1x4, .f32⟩ : BufTy).Contents (Elt Ideal)) (x1 : (⟨S3x512x1, .f32⟩ : BufTy).Contents (Elt Ideal))
    (x2 : (⟨S3x1, .f32⟩ : BufTy).Contents (Elt Ideal)) (x3 : (⟨S512x1024, .f32⟩ : BufTy).Contents (Elt Ideal))
    (x4 : (⟨S1024, .f32⟩ : BufTy).Contents (Elt Ideal)) (x5 : (⟨S1024x1, .f32⟩ : BufTy).Contents (Elt Ideal))
    (x6 : (⟨S1, .f32⟩ : BufTy).Contents (Elt Ideal))

/-! ## The embedding without its unit axis -/

/-- The reshaped embedding at node, channel, residue reads the argument at the same three, the unit axis at 0:
    the row-major position `(512 n + c) 4 + r` has quotient `n` by 2048, `c` as its quotient by 4 modulo 512, and
    remainder `r` modulo 4. -/
theorem v0_at (n : Fin 10000) (c : Fin 512) (r : Fin 4) :
    val_main_v0 (F := Ideal) x0 (ix3 n c r) = x0 (ix4 n c (0 : Fin 1) r) := by
  refine (val_main_v0_apply x0 _).trans (congrArg x0 (funext fun a => Fin.ext ?_))
  have hn := n.isLt; have hc := c.isLt; have hr := r.isLt
  match a with
  | ⟨0, _⟩ => show ((n.val * 512 + c.val) * 4 + r.val) / 2048 = n.val; omega
  | ⟨1, _⟩ => show ((n.val * 512 + c.val) * 4 + r.val) / 4 % 512 = c.val; omega
  | ⟨2, _⟩ => rfl
  | ⟨3, _⟩ => show ((n.val * 512 + c.val) * 4 + r.val) % 4 = r.val; omega

/-! ## Linear head 0 -/

/-- Residue 0's slice as a matrix of node by channel. -/
theorem v2_at (n : Fin 10000) (c : Fin 512) :
    val_main_v2 (F := Ideal) x0 (ix2 n c) = x0 (ix4 n c (0 : Fin 1) (0 : Fin 4)) := by
  refine (val_main_v2_apply x0 _).trans ((val_main_v1_apply x0 _).trans ?_)
  refine Eq.trans (congrArg (val_main_v0 (F := Ideal) x0) (?_ : _ = ix3 n c (0 : Fin 4))) (v0_at x0 n c 0)
  funext a; apply Fin.ext
  have hn := n.isLt; have hc := c.isLt
  match a with
  | ⟨0, _⟩ => show (n.val * 512 + c.val) / 512 = n.val; omega
  | ⟨1, _⟩ => show (n.val * 512 + c.val) / 1 % 512 = c.val; omega
  | ⟨2, _⟩ => rfl

/-- Head 0's weights as a column. -/
theorem v4_at (c : Fin 512) :
    val_main_v4 (F := Ideal) x1 (ix2 c (0 : Fin 1)) = x1 (ix3 (0 : Fin 3) c (0 : Fin 1)) := by
  refine (val_main_v4_apply x1 _).trans ((val_main_v3_apply x1 _).trans (congrArg x1 (funext fun a => Fin.ext ?_)))
  have hc := c.isLt
  match a with
  | ⟨0, _⟩ => rfl
  | ⟨1, _⟩ => show (c.val * 1 + 0) / 1 % 512 = c.val; omega
  | ⟨2, _⟩ => rfl

/-- Head 0's product is the dot product over the channels. -/
theorem v5_at (n : Fin 10000) :
    val_main_v5 (F := Ideal) x0 x1 (ix2 n (0 : Fin 1))
      = dot512 (fun c => x0 (ix4 n c (0 : Fin 1) (0 : Fin 4))) (fun c => x1 (ix3 (0 : Fin 3) c (0 : Fin 1))) := by
  refine (val_main_v5_apply x0 x1 _).trans (Finset.sum_congr rfl fun k _ => ?_)
  have el : lidx_main_v5 (ix2 n (0 : Fin 1)) k = ix2 n k :=
    funext fun a => Fin.ext (by match a with | ⟨0, _⟩ => rfl | ⟨1, _⟩ => rfl)
  have er : ridx_main_v5 (ix2 n (0 : Fin 1)) k = ix2 k (0 : Fin 1) :=
    funext fun a => Fin.ext (by match a with | ⟨0, _⟩ => rfl | ⟨1, _⟩ => rfl)
  rw [el, er, v2_at, v4_at]

/-- Head 0's bias, spread over the nodes. -/
theorem v9_at (n : Fin 10000) :
    val_main_v9 (F := Ideal) x2 (ix2 n (0 : Fin 1)) = x2 (ix2 (0 : Fin 3) (0 : Fin 1)) := by
  refine (val_main_v9_apply x2 _).trans ((val_main_v8_apply x2 _).trans ((val_main_v7_apply x2 _).trans
    ((val_main_v6_apply x2 _).trans (congrArg x2 (funext fun a => Fin.ext ?_)))))
  match a with
  | ⟨0, _⟩ => rfl
  | ⟨1, _⟩ => rfl

/-- Linear head 0 with its bias. -/
theorem v10_at (n : Fin 10000) :
    val_main_v10 (F := Ideal) x0 x1 x2 (ix2 n (0 : Fin 1))
      = dot512 (fun c => x0 (ix4 n c (0 : Fin 1) (0 : Fin 4))) (fun c => x1 (ix3 (0 : Fin 3) c (0 : Fin 1)))
        + x2 (ix2 (0 : Fin 3) (0 : Fin 1)) := by
  rw [val_main_v10_apply, v5_at, v9_at]; rfl

/-! ## Linear head 1: the same reading one residue, one weight row and one bias further on -/

/-- Residue 1's slice as a matrix of node by channel. -/
theorem v12_at (n : Fin 10000) (c : Fin 512) :
    val_main_v12 (F := Ideal) x0 (ix2 n c) = x0 (ix4 n c (0 : Fin 1) (1 : Fin 4)) := by
  refine (val_main_v12_apply x0 _).trans ((val_main_v11_apply x0 _).trans ?_)
  refine Eq.trans (congrArg (val_main_v0 (F := Ideal) x0) (?_ : _ = ix3 n c (1 : Fin 4))) (v0_at x0 n c 1)
  funext a; apply Fin.ext
  have hn := n.isLt; have hc := c.isLt
  match a with
  | ⟨0, _⟩ => show (n.val * 512 + c.val) / 512 = n.val; omega
  | ⟨1, _⟩ => show (n.val * 512 + c.val) / 1 % 512 = c.val; omega
  | ⟨2, _⟩ => rfl

/-- Head 1's weights as a column. -/
theorem v14_at (c : Fin 512) :
    val_main_v14 (F := Ideal) x1 (ix2 c (0 : Fin 1)) = x1 (ix3 (1 : Fin 3) c (0 : Fin 1)) := by
  refine (val_main_v14_apply x1 _).trans ((val_main_v13_apply x1 _).trans (congrArg x1 (funext fun a => Fin.ext ?_)))
  have hc := c.isLt
  match a with
  | ⟨0, _⟩ => rfl
  | ⟨1, _⟩ => show (c.val * 1 + 0) / 1 % 512 = c.val; omega
  | ⟨2, _⟩ => rfl

/-- Head 1's product is the dot product over the channels. -/
theorem v15_at (n : Fin 10000) :
    val_main_v15 (F := Ideal) x0 x1 (ix2 n (0 : Fin 1))
      = dot512 (fun c => x0 (ix4 n c (0 : Fin 1) (1 : Fin 4))) (fun c => x1 (ix3 (1 : Fin 3) c (0 : Fin 1))) := by
  refine (val_main_v15_apply x0 x1 _).trans (Finset.sum_congr rfl fun k _ => ?_)
  have el : lidx_main_v15 (ix2 n (0 : Fin 1)) k = ix2 n k :=
    funext fun a => Fin.ext (by match a with | ⟨0, _⟩ => rfl | ⟨1, _⟩ => rfl)
  have er : ridx_main_v15 (ix2 n (0 : Fin 1)) k = ix2 k (0 : Fin 1) :=
    funext fun a => Fin.ext (by match a with | ⟨0, _⟩ => rfl | ⟨1, _⟩ => rfl)
  rw [el, er, v12_at, v14_at]

/-- Head 1's bias, spread over the nodes. -/
theorem v19_at (n : Fin 10000) :
    val_main_v19 (F := Ideal) x2 (ix2 n (0 : Fin 1)) = x2 (ix2 (1 : Fin 3) (0 : Fin 1)) := by
  refine (val_main_v19_apply x2 _).trans ((val_main_v18_apply x2 _).trans ((val_main_v17_apply x2 _).trans
    ((val_main_v16_apply x2 _).trans (congrArg x2 (funext fun a => Fin.ext ?_)))))
  match a with
  | ⟨0, _⟩ => rfl
  | ⟨1, _⟩ => rfl

/-- Linear head 1 with its bias. -/
theorem v20_at (n : Fin 10000) :
    val_main_v20 (F := Ideal) x0 x1 x2 (ix2 n (0 : Fin 1))
      = dot512 (fun c => x0 (ix4 n c (0 : Fin 1) (1 : Fin 4))) (fun c => x1 (ix3 (1 : Fin 3) c (0 : Fin 1)))
        + x2 (ix2 (1 : Fin 3) (0 : Fin 1)) := by
  rw [val_main_v20_apply, v15_at, v19_at]; rfl

/-! ## Linear head 2 -/

/-- Residue 2's slice as a matrix of node by channel. -/
theorem v22_at (n : Fin 10000) (c : Fin 512) :
    val_main_v22 (F := Ideal) x0 (ix2 n c) = x0 (ix4 n c (0 : Fin 1) (2 : Fin 4)) := by
  refine (val_main_v22_apply x0 _).trans ((val_main_v21_apply x0 _).trans ?_)
  refine Eq.trans (congrArg (val_main_v0 (F := Ideal) x0) (?_ : _ = ix3 n c (2 : Fin 4))) (v0_at x0 n c 2)
  funext a; apply Fin.ext
  have hn := n.isLt; have hc := c.isLt
  match a with
  | ⟨0, _⟩ => show (n.val * 512 + c.val) / 512 = n.val; omega
  | ⟨1, _⟩ => show (n.val * 512 + c.val) / 1 % 512 = c.val; omega
  | ⟨2, _⟩ => rfl

/-- Head 2's weights as a column. -/
theorem v24_at (c : Fin 512) :
    val_main_v24 (F := Ideal) x1 (ix2 c (0 : Fin 1)) = x1 (ix3 (2 : Fin 3) c (0 : Fin 1)) := by
  refine (val_main_v24_apply x1 _).trans ((val_main_v23_apply x1 _).trans (congrArg x1 (funext fun a => Fin.ext ?_)))
  have hc := c.isLt
  match a with
  | ⟨0, _⟩ => rfl
  | ⟨1, _⟩ => show (c.val * 1 + 0) / 1 % 512 = c.val; omega
  | ⟨2, _⟩ => rfl

/-- Head 2's product is the dot product over the channels. -/
theorem v25_at (n : Fin 10000) :
    val_main_v25 (F := Ideal) x0 x1 (ix2 n (0 : Fin 1))
      = dot512 (fun c => x0 (ix4 n c (0 : Fin 1) (2 : Fin 4))) (fun c => x1 (ix3 (2 : Fin 3) c (0 : Fin 1))) := by
  refine (val_main_v25_apply x0 x1 _).trans (Finset.sum_congr rfl fun k _ => ?_)
  have el : lidx_main_v25 (ix2 n (0 : Fin 1)) k = ix2 n k :=
    funext fun a => Fin.ext (by match a with | ⟨0, _⟩ => rfl | ⟨1, _⟩ => rfl)
  have er : ridx_main_v25 (ix2 n (0 : Fin 1)) k = ix2 k (0 : Fin 1) :=
    funext fun a => Fin.ext (by match a with | ⟨0, _⟩ => rfl | ⟨1, _⟩ => rfl)
  rw [el, er, v22_at, v24_at]

/-- Head 2's bias, spread over the nodes. -/
theorem v29_at (n : Fin 10000) :
    val_main_v29 (F := Ideal) x2 (ix2 n (0 : Fin 1)) = x2 (ix2 (2 : Fin 3) (0 : Fin 1)) := by
  refine (val_main_v29_apply x2 _).trans ((val_main_v28_apply x2 _).trans ((val_main_v27_apply x2 _).trans
    ((val_main_v26_apply x2 _).trans (congrArg x2 (funext fun a => Fin.ext ?_)))))
  match a with
  | ⟨0, _⟩ => rfl
  | ⟨1, _⟩ => rfl

/-- Linear head 2 with its bias. -/
theorem v30_at (n : Fin 10000) :
    val_main_v30 (F := Ideal) x0 x1 x2 (ix2 n (0 : Fin 1))
      = dot512 (fun c => x0 (ix4 n c (0 : Fin 1) (2 : Fin 4))) (fun c => x1 (ix3 (2 : Fin 3) c (0 : Fin 1)))
        + x2 (ix2 (2 : Fin 3) (0 : Fin 1)) := by
  rw [val_main_v30_apply, v25_at, v29_at]; rfl

/-! ## The two-layer head on residue 3 -/

/-- Residue 3's slice as a matrix of node by channel. -/
theorem v32_at (n : Fin 10000) (c : Fin 512) :
    val_main_v32 (F := Ideal) x0 (ix2 n c) = x0 (ix4 n c (0 : Fin 1) (3 : Fin 4)) := by
  refine (val_main_v32_apply x0 _).trans ((val_main_v31_apply x0 _).trans ?_)
  refine Eq.trans (congrArg (val_main_v0 (F := Ideal) x0) (?_ : _ = ix3 n c (3 : Fin 4))) (v0_at x0 n c 3)
  funext a; apply Fin.ext
  have hn := n.isLt; have hc := c.isLt
  match a with
  | ⟨0, _⟩ => show (n.val * 512 + c.val) / 512 = n.val; omega
  | ⟨1, _⟩ => show (n.val * 512 + c.val) / 1 % 512 = c.val; omega
  | ⟨2, _⟩ => rfl

/-- The hidden layer before the activation: the product with the first-layer weights plus the bias row. -/
theorem v36_at (n : Fin 10000) (k : Fin 1024) :
    val_main_v36 (F := Ideal) x0 x3 x4 (ix2 n k)
      = hidden (fun n c r => x0 (ix4 n c (0 : Fin 1) r)) (fun c k => x3 (ix2 c k)) (fun k => x4 (ix1 k)) n k := by
  have hdot : val_main_v33 (F := Ideal) x0 x3 (ix2 n k)
      = dot512 (fun c => x0 (ix4 n c (0 : Fin 1) (3 : Fin 4))) (fun c => x3 (ix2 c k)) := by
    refine (val_main_v33_apply x0 x3 _).trans (Finset.sum_congr rfl fun c _ => ?_)
    have el : lidx_main_v33 (ix2 n k) c = ix2 n c :=
      funext fun a => Fin.ext (by match a with | ⟨0, _⟩ => rfl | ⟨1, _⟩ => rfl)
    have er : ridx_main_v33 (ix2 n k) c = ix2 c k :=
      funext fun a => Fin.ext (by match a with | ⟨0, _⟩ => rfl | ⟨1, _⟩ => rfl)
    rw [el, er, v32_at]
  have hb : val_main_v35 (F := Ideal) x4 (ix2 n k) = x4 (ix1 k) := by
    refine (val_main_v35_apply x4 _).trans ((val_main_v34_apply x4 _).trans (congrArg x4 (funext fun a => Fin.ext ?_)))
    match a with
    | ⟨0, _⟩ => rfl
  rw [val_main_v36_apply, hdot, hb]; rfl

/-- The activation.  The program writes `h * (1 / (1 + exp (-h)))` with both ones as constants spread over the array;
    once the two constants are read as the number one, that expression is the logistic function's definition. -/
theorem v37_at (n : Fin 10000) (k : Fin 1024) :
    val_main_v37 (F := Ideal) x0 x3 x4 (ix2 n k)
      = silu (hidden (fun n c r => x0 (ix4 n c (0 : Fin 1) r)) (fun c k => x3 (ix2 c k)) (fun k => x4 (ix1 k)) n k) := by
  have h2 : val_main_call0_v2 (F := Ideal) (ix2 n k) = 1 := by
    rw [val_main_call0_v2_apply, val_main_call0_cst_apply]; exact Ideal.ofBits_one_f32
  have h4 : val_main_call0_v4 (F := Ideal) (ix2 n k) = 1 := by
    rw [val_main_call0_v4_apply, val_main_call0_cst_0_apply]; exact Ideal.ofBits_one_f32
  rw [val_main_v37_apply, val_main_call0_v5_apply, val_main_call0_v3_apply, val_main_call0_v1_apply,
    val_main_call0_v0_apply, h2, h4, v36_at]
  rfl

/-- The output head with its bias. -/
theorem v41_at (n : Fin 10000) :
    val_main_v41 (F := Ideal) x0 x3 x4 x5 x6 (ix2 n (0 : Fin 1))
      = (∑ k : Fin 1024, silu (hidden (fun n c r => x0 (ix4 n c (0 : Fin 1) r)) (fun c k => x3 (ix2 c k))
            (fun k => x4 (ix1 k)) n k) * x5 (ix2 k (0 : Fin 1)))
        + x6 (ix1 (0 : Fin 1)) := by
  have hdot : val_main_v38 (F := Ideal) x0 x3 x4 x5 (ix2 n (0 : Fin 1))
      = ∑ k : Fin 1024, silu (hidden (fun n c r => x0 (ix4 n c (0 : Fin 1) r)) (fun c k => x3 (ix2 c k))
            (fun k => x4 (ix1 k)) n k) * x5 (ix2 k (0 : Fin 1)) := by
    refine (val_main_v38_apply x0 x3 x4 x5 _).trans (Finset.sum_congr rfl fun k _ => ?_)
    have el : lidx_main_v38 (ix2 n (0 : Fin 1)) k = ix2 n k :=
      funext fun a => Fin.ext (by match a with | ⟨0, _⟩ => rfl | ⟨1, _⟩ => rfl)
    have er : ridx_main_v38 (ix2 n (0 : Fin 1)) k = ix2 k (0 : Fin 1) :=
      funext fun a => Fin.ext (by match a with | ⟨0, _⟩ => rfl | ⟨1, _⟩ => rfl)
    rw [el, er, v37_at]
  have hb : val_main_v40 (F := Ideal) x6 (ix2 n (0 : Fin 1)) = x6 (ix1 (0 : Fin 1)) := by
    refine (val_main_v40_apply x6 _).trans ((val_main_v39_apply x6 _).trans (congrArg x6 (funext fun a => Fin.ext ?_)))
    match a with
    | ⟨0, _⟩ => rfl
  rw [val_main_v41_apply, hdot, hb]; rfl

/-! ## The stack of the four columns -/

/-- Head 0's column laid as one slab reads the column at the same node. -/
theorem v42_at (n : Fin 10000) :
    val_main_v42 (F := Ideal) x0 x1 x2 (ix3 (0 : Fin 1) n (0 : Fin 1)) = val_main_v10 (F := Ideal) x0 x1 x2 (ix2 n (0 : Fin 1)) := by
  refine (val_main_v42_apply x0 x1 x2 _).trans (congrArg (val_main_v10 (F := Ideal) x0 x1 x2) (funext fun a => Fin.ext ?_))
  match a with
  | ⟨0, _⟩ => rfl
  | ⟨1, _⟩ => rfl

/-- Head 1's column laid as one slab. -/
theorem v43_at (n : Fin 10000) :
    val_main_v43 (F := Ideal) x0 x1 x2 (ix3 (0 : Fin 1) n (0 : Fin 1)) = val_main_v20 (F := Ideal) x0 x1 x2 (ix2 n (0 : Fin 1)) := by
  refine (val_main_v43_apply x0 x1 x2 _).trans (congrArg (val_main_v20 (F := Ideal) x0 x1 x2) (funext fun a => Fin.ext ?_))
  match a with
  | ⟨0, _⟩ => rfl
  | ⟨1, _⟩ => rfl

/-- Head 2's column laid as one slab. -/
theorem v44_at (n : Fin 10000) :
    val_main_v44 (F := Ideal) x0 x1 x2 (ix3 (0 : Fin 1) n (0 : Fin 1)) = val_main_v30 (F := Ideal) x0 x1 x2 (ix2 n (0 : Fin 1)) := by
  refine (val_main_v44_apply x0 x1 x2 _).trans (congrArg (val_main_v30 (F := Ideal) x0 x1 x2) (funext fun a => Fin.ext ?_))
  match a with
  | ⟨0, _⟩ => rfl
  | ⟨1, _⟩ => rfl

/-- The two-layer head's column laid as one slab. -/
theorem v45_at (n : Fin 10000) :
    val_main_v45 (F := Ideal) x0 x3 x4 x5 x6 (ix3 (0 : Fin 1) n (0 : Fin 1))
      = val_main_v41 (F := Ideal) x0 x3 x4 x5 x6 (ix2 n (0 : Fin 1)) := by
  refine (val_main_v45_apply x0 x3 x4 x5 x6 _).trans
    (congrArg (val_main_v41 (F := Ideal) x0 x3 x4 x5 x6) (funext fun a => Fin.ext ?_))
  match a with
  | ⟨0, _⟩ => rfl
  | ⟨1, _⟩ => rfl

/-! The four slabs have extent one along the stacking axis, so the leading coordinate `k` of an index of the stack
    names the slab: `k` slabs of extent one lie before it, and within the slab the coordinate is 0. -/

/-- The stack at leading coordinate 0 is the first slab. -/
theorem v46_at0 (n : Fin 10000) :
    val_main_v46 (F := Ideal) x0 x1 x2 x3 x4 x5 x6 (ix3 (0 : Fin 4) n (0 : Fin 1))
      = val_main_v42 (F := Ideal) x0 x1 x2 (ix3 (0 : Fin 1) n (0 : Fin 1)) := by
  unfold val_main_v46
  refine concatenate_apply_piece (t := S4x10000x1) 0 _ _ _ 0 (by show (0 : Nat) < 4; decide) S1x10000x1 _ rfl rfl 0 rfl
    (ix3 (0 : Fin 1) n (0 : Fin 1)) ?_ rfl
  intro b hb
  match b with
  | ⟨0, _⟩ => exact absurd rfl hb
  | ⟨1, _⟩ => rfl
  | ⟨2, _⟩ => rfl

/-- The stack at leading coordinate 1 is the second slab. -/
theorem v46_at1 (n : Fin 10000) :
    val_main_v46 (F := Ideal) x0 x1 x2 x3 x4 x5 x6 (ix3 (1 : Fin 4) n (0 : Fin 1))
      = val_main_v43 (F := Ideal) x0 x1 x2 (ix3 (0 : Fin 1) n (0 : Fin 1)) := by
  unfold val_main_v46
  refine concatenate_apply_piece (t := S4x10000x1) 0 _ _ _ 1 (by show (1 : Nat) < 4; decide) S1x10000x1 _ rfl rfl 1 rfl
    (ix3 (0 : Fin 1) n (0 : Fin 1)) ?_ rfl
  intro b hb
  match b with
  | ⟨0, _⟩ => exact absurd rfl hb
  | ⟨1, _⟩ => rfl
  | ⟨2, _⟩ => rfl

/-- The stack at leading coordinate 2 is the third slab. -/
theorem v46_at2 (n : Fin 10000) :
    val_main_v46 (F := Ideal) x0 x1 x2 x3 x4 x5 x6 (ix3 (2 : Fin 4) n (0 : Fin 1))
      = val_main_v44 (F := Ideal) x0 x1 x2 (ix3 (0 : Fin 1) n (0 : Fin 1)) := by
  unfold val_main_v46
  refine concatenate_apply_piece (t := S4x10000x1) 0 _ _ _ 2 (by show (2 : Nat) < 4; decide) S1x10000x1 _ rfl rfl 2 rfl
    (ix3 (0 : Fin 1) n (0 : Fin 1)) ?_ rfl
  intro b hb
  match b with
  | ⟨0, _⟩ => exact absurd rfl hb
  | ⟨1, _⟩ => rfl
  | ⟨2, _⟩ => rfl

/-- The stack at leading coordinate 3 is the fourth slab. -/
theorem v46_at3 (n : Fin 10000) :
    val_main_v46 (F := Ideal) x0 x1 x2 x3 x4 x5 x6 (ix3 (3 : Fin 4) n (0 : Fin 1))
      = val_main_v45 (F := Ideal) x0 x3 x4 x5 x6 (ix3 (0 : Fin 1) n (0 : Fin 1)) := by
  unfold val_main_v46
  refine concatenate_apply_piece (t := S4x10000x1) 0 _ _ _ 3 (by show (3 : Nat) < 4; decide) S1x10000x1 _ rfl rfl 3 rfl
    (ix3 (0 : Fin 1) n (0 : Fin 1)) ?_ rfl
  intro b hb
  match b with
  | ⟨0, _⟩ => exact absurd rfl hb
  | ⟨1, _⟩ => rfl
  | ⟨2, _⟩ => rfl

/-! ## The sum over the stack and the result -/

/-- The sum over the stacking axis from zero: the four columns added in order. -/
theorem v47_at (n : Fin 10000) :
    val_main_v47 (F := Ideal) x0 x1 x2 x3 x4 x5 x6 (ix2 n (0 : Fin 1))
      = val_main_v10 (F := Ideal) x0 x1 x2 (ix2 n (0 : Fin 1)) + val_main_v20 (F := Ideal) x0 x1 x2 (ix2 n (0 : Fin 1))
        + val_main_v30 (F := Ideal) x0 x1 x2 (ix2 n (0 : Fin 1)) + val_main_v41 (F := Ideal) x0 x3 x4 x5 x6 (ix2 n (0 : Fin 1)) := by
  have e : ∀ k : Fin 4, idx_main_v47 (ix2 n (0 : Fin 1)) k = ix3 k n (0 : Fin 1) := fun k =>
    funext fun a => Fin.ext (by match a with | ⟨0, _⟩ => rfl | ⟨1, _⟩ => rfl | ⟨2, _⟩ => rfl)
  rw [val_main_v47_apply, val_main_cst_apply, Fin.sum_univ_four, e 0, e 1, e 2, e 3,
    v46_at0, v46_at1, v46_at2, v46_at3, v42_at, v43_at, v44_at, v45_at]
  exact (congrArg (· + _) Ideal.ofBits_zero_f32).trans (zero_add _)

/-- The reference's last stage at `Ideal` is the readout, index by index. -/
theorem reference_eq (x0 : (⟨S10000x512x1x4, .f32⟩ : BufTy).Contents (Elt Ideal)) (x1 : (⟨S3x512x1, .f32⟩ : BufTy).Contents (Elt Ideal))
    (x2 : (⟨S3x1, .f32⟩ : BufTy).Contents (Elt Ideal)) (x3 : (⟨S512x1024, .f32⟩ : BufTy).Contents (Elt Ideal))
    (x4 : (⟨S1024, .f32⟩ : BufTy).Contents (Elt Ideal)) (x5 : (⟨S1024x1, .f32⟩ : BufTy).Contents (Elt Ideal))
    (x6 : (⟨S1, .f32⟩ : BufTy).Contents (Elt Ideal)) :
    val_main_v48 (F := Ideal) x0 x1 x2 x3 x4 x5 x6 = G x0 x1 x2 x3 x4 x5 x6 := by
  funext i
  obtain ⟨n, rfl⟩ : ∃ n : Fin 10000, i = ix1 n := ⟨i 0, eq_ix1 (n := 10000) i⟩
  have e : idx_main_v48 (ix1 n) = ix2 n (0 : Fin 1) :=
    funext fun a => Fin.ext (by match a with | ⟨0, _⟩ => exact Nat.div_one _ | ⟨1, _⟩ => rfl)
  rw [val_main_v48_apply, e, v47_at, v10_at, v20_at, v30_at, v41_at]
  rfl

end Cert.Readout

end
-- ==== Proof.lean ====
/-
  The certificate of the node readout kernel against its reference.

  Both programs compute, for each of 10000 nodes, the sum of four heads over an embedding of 512 channels by 4
  residues: residues 0, 1, 2 through a linear head each (a dot product over the channels plus a bias), residue 3
  through a hidden layer of width 1024, the activation `x · σ(x)`, and a linear output head with its bias.

  The reference slices the embedding by residue and adds the four heads' columns.  The kernel reads the embedding
  flattened to 2048 interleaved lanes per node: the three linear heads are one lane sum against an interleaved
  weight vector that is zero on residue 3's lanes; the hidden layer is one matrix product against the first-layer
  weights expanded with zero rows on the lanes of residues 0, 1, 2; and the four biases are added up front.  On the
  extended reals a product with zero is zero and addition is commutative and associative, so the two arrangements
  are the same number (the specification's `interleaved_eq`); the activation is the same function on both sides
  (the logistic function is `1 / (1 + exp (-x))` by definition, which is what the reference spells out); a change of
  float format is the identity.  Nothing in the argument needs the inputs to be finite.

  The three frames: the two kernel programs' are the generated frame certificates; the reference's is its generated
  run with the result dropped.  The idealization rewrote no operation, so `preserves` has nothing to state.
-/
import proofs.«106727_g87316685128367_cont_sun_m_226_4_alg».proof.Defs
import proofs.«106727_g87316685128367_cont_sun_m_226_4_alg».proof.Proof.Gen.Kernel
import proofs.«106727_g87316685128367_cont_sun_m_226_4_alg».proof.Proof.Gen.Kernel.Skeleton
import proofs.«106727_g87316685128367_cont_sun_m_226_4_alg».proof.Proof.Gen.Kernel.Launch
import proofs.«106727_g87316685128367_cont_sun_m_226_4_alg».proof.Proof.Gen.Kernel.Points
import proofs.«106727_g87316685128367_cont_sun_m_226_4_alg».proof.Proof.Gen.Kernel.Frame
import proofs.«106727_g87316685128367_cont_sun_m_226_4_alg».proof.Proof.Gen.KernelIdeal
import proofs.«106727_g87316685128367_cont_sun_m_226_4_alg».proof.Proof.Gen.KernelIdeal.Skeleton
import proofs.«106727_g87316685128367_cont_sun_m_226_4_alg».proof.Proof.Gen.KernelIdeal.Launch
import proofs.«106727_g87316685128367_cont_sun_m_226_4_alg».proof.Proof.Gen.KernelIdeal.Points
import proofs.«106727_g87316685128367_cont_sun_m_226_4_alg».proof.Proof.Gen.KernelIdeal.Frame
import proofs.«106727_g87316685128367_cont_sun_m_226_4_alg».proof.Proof.Gen.ReferenceIdeal
import proofs.«106727_g87316685128367_cont_sun_m_226_4_alg».proof.Proof.Gen.Pre_finite_inputs
import proofs.«106727_g87316685128367_cont_sun_m_226_4_alg».proof.Proof.Gen.ReferenceIdeal.Run
import proofs.«106727_g87316685128367_cont_sun_m_226_4_alg».proof.Proof.Gen.ReferenceIdeal.Read
import proofs.«106727_g87316685128367_cont_sun_m_226_4_alg».proof.Proof.KernelRun
import proofs.«106727_g87316685128367_cont_sun_m_226_4_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments, the kernel's program ends at the readout of its arguments
    and the reference at the readout of its own: the same array. -/
theorem algebraic : Cert.algebraic_KernelIdeal_ReferenceIdeal := by
  intro m ρ m' ρ' _ hagree
  refine ⟨fun c => Cert.Readout.readout m c, Cert.Readout.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v48_eq, Cert.Readout.reference_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
